-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v14_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x1024 : Shape := ⟨2, ![512, 1024]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 36
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .i32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .bf16⟩
  | .hbm, ⟨25, _⟩ => ⟨S4096x1, .i32⟩
  | .hbm, ⟨26, _⟩ => ⟨S1x4096, .i32⟩
  | .hbm, ⟨27, _⟩ => ⟨S4096x4096, .f32⟩
  | .hbm, ⟨28, _⟩ => ⟨S4096x4096, .i32⟩
  | .hbm, ⟨29, _⟩ => ⟨S4096x1, .f32⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x512, .f32⟩
  | .local _ .vmem, ⟨9, _⟩ => ⟨S512x512, .f32⟩
  | .local _ .vmem, ⟨10, _⟩ => ⟨S512x512, .i32⟩
  | .local _ .vmem, ⟨11, _⟩ => ⟨S512x512, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v57 : BitVec 1 := Scalar.cmpi .eq arg1 c7_i32
  let v58 : BitVec 32 := Scalar.extui v57
  let c0_i32_35 : BitVec 32 := 0#32
  let v59 : BitVec 1 := Scalar.cmpi .ne v58 c0_i32_35
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bitsLt_bf16_f32 : FTy.bits .bf16 < FTy.bits .f32
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  natLt_1_32 : 1 < 32
  reduces_S512x512_S512 : S512x512.Reduces [1] S512
  shapeCasts_S512_S512x1 : S512.ShapeCasts S512x1
  shapeCasts_S4096x1_S4096 : S4096x1.ShapeCasts S4096
  reducesTo_S4096_S_d0 : S4096.ReducesTo [0] S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .i32 = 32 ∨ (Rect.block (s := S4096x4096) S512x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_2) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S4096x4096 : Shape := ⟨2, ![4096, 4096]⟩
abbrev S1x4096 : Shape := ⟨2, ![1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .i32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x1, .i32⟩
  | .hbm, ⟨28, _⟩ => ⟨S1x4096, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S4096x4096, .i32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096x4096, .f32⟩
  | .hbm, ⟨59, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  natLt_1_32 : 1 < 32
  reducesTo_S4096x4096_S4096_d1 : S4096x4096.ReducesTo [1] S4096
  reducesTo_S4096_S_d0 : S4096.ReducesTo [0] S_
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.Spec.lean ====
/-
  The mathematics both programs compute, stated once over plain index types.

  Rows `c r` and `ch q` of two [4096, 1024] arrays are scaled to unit length (each divided by the larger of its
  Euclidean norm and a small constant), every pair's inner product is taken — the cosine similarity `dots a b r q` —
  and divided by a temperature `T` to give the logit `logit a b r q = dots a b r q · (1 / T)`. Two rows are
  positives of each other when their integer labels agree (`maskW`, an i32 zero or one; `maskF`, the same as a float).
  Row `r`'s loss term is the mean over its positives `q` of the log-softmax `logit r q − max − log Σ exp(logit − max)`,
  and the loss is minus the mean of the 4096 terms.

  A row's term is computed in two ways. DIRECTLY (`rowDirect`): the maximum, then the sum of exponentials, then the
  masked mean of the log-probabilities. STREAMING (`rowStream`): the columns come in eight blocks of 512, and a state
  (running maximum m, sum of exponentials l taken relative to m, masked logit sum s, positive count c) is updated
  block by block — `l` rescaled by `exp (m_old − m_new)` whenever the maximum moves — and the term is read off the
  final state as `s / c − m − log l`. That the two agree on finite logits with at least one positive is proved in
  the module on the streaming softmax; here are only the definitions.
-/
import Idealize.ShloMosaic.PureOps.Ideal
import Idealize.ShloMosaic.PureOps.Ideal.Laws
import Idealize.ShloMosaic.Lib.ValueIdx

noncomputable section

namespace Cert.Contrast

open Idealize.ShloMosaic Idealize.ShloMosaic.ValueIdx

/-- The temperature as the reference's own f32 word reads: `0x3D4CCCCD` is `13421773 / 2^28`. -/
def tempR : ℝ := 13421773 / 268435456

/-- The reciprocal of that temperature, as an extended real: what the kernel's named constant denotes. -/
def invT : EReal := ((268435456 / 13421773 : ℝ) : EReal)

/-- Column `512·J + j` of a row: entry `j` of column block `J`. -/
def col (J : Fin 8) (j : Fin 512) : Fin 4096 :=
  ⟨512 * J.val + j.val, by have := J.isLt; have := j.isLt; omega⟩

/-- Row `512·I + p`: row `p` of row block `I`. -/
def row (I : Fin 8) (p : Fin 512) : Fin 4096 :=
  ⟨512 * I.val + p.val, by have := I.isLt; have := p.isLt; omega⟩

/-! ## One row: the streaming state and the direct formula -/

/-- A row's streaming state: running maximum, sum of exponentials relative to it, masked logit sum, positive count. -/
abbrev Acc := EReal × EReal × EReal × EReal

/-- The state before any column: maximum `−∞`, the three sums zero. -/
def acc0 : Acc := (⊥, 0, 0, 0)

/-- One block of 512 logits `x` with mask `w` folded into the state. -/
def step (x w : Fin 512 → EReal) (a : Acc) : Acc :=
  (max a.1 (Finset.univ.fold max ⊥ x),
   Ideal.exp (a.1 - max a.1 (Finset.univ.fold max ⊥ x)) * a.2.1
     + ∑ j : Fin 512, Ideal.exp (x j - max a.1 (Finset.univ.fold max ⊥ x)),
   a.2.2.1 + ∑ j : Fin 512, w j * x j,
   a.2.2.2 + ∑ j : Fin 512, w j)

/-- The state after the first `n` column blocks of a row with logits `x` and mask `w`. -/
def accAfter (x w : Fin 4096 → EReal) : (n : ℕ) → n ≤ 8 → Acc
  | 0, _ => acc0
  | n + 1, h => step (fun j => x (col ⟨n, h⟩ j)) (fun j => w (col ⟨n, h⟩ j)) (accAfter x w n (Nat.le_of_succ_le h))

/-- The row's term read off a state: `s / c − m − log l`. -/
def finish (a : Acc) : EReal := Ideal.div a.2.2.1 a.2.2.2 - a.1 - Ideal.log a.2.1

/-- The row's term, streaming over the eight column blocks. -/
def rowStream (x w : Fin 4096 → EReal) : EReal := finish (accAfter x w 8 le_rfl)

/-- The row's term, directly: the masked mean of `(x − max x) − log Σ exp (x − max x)`. -/
def rowDirect (x w : Fin 4096 → EReal) : EReal :=
  Ideal.div
    (∑ q : Fin 4096, w q * ((x q - Finset.univ.fold max ⊥ x)
      - Ideal.log (∑ q' : Fin 4096, Ideal.exp (x q' - Finset.univ.fold max ⊥ x))))
    (∑ q : Fin 4096, w q)

/-- Minus the mean of the 4096 row terms. -/
def lossOf (t : Fin 4096 → EReal) : EReal := -(Ideal.div (∑ r : Fin 4096, t r) ((4096 : ℝ) : EReal))

/-! ## The arrays -/

abbrev SND : Shape := ⟨2, ![4096, 1024]⟩
abbrev SNN : Shape := ⟨2, ![4096, 4096]⟩
abbrev SN : Shape := ⟨1, ![4096]⟩

/-- A row scaled to unit length: each entry divided by the larger of the row's Euclidean norm and `ε`
    (`0x322BCC77`, the f32 nearest `1e-8`). -/
def unitRows (x : SND.Idx → EReal) : SND.Idx → EReal := fun i =>
  Ideal.div (x i) (max (Ideal.sqrt (∑ d : Fin 1024, x (ix2 (i 0) d) * x (ix2 (i 0) d))) (Ideal.ofBits .f32 0x322BCC77#32))

/-- The inner product of row `r` of `a` with row `q` of `b`. -/
def dots (a b : SND.Idx → EReal) (r q : Fin 4096) : EReal := ∑ k : Fin 1024, a (ix2 r k) * b (ix2 q k)

/-- The logit: the inner product over the temperature. -/
def logit (a b : SND.Idx → EReal) (r q : Fin 4096) : EReal := dots a b r q * invT

/-- Whether rows `r` and `q` carry the same label, as an i32 zero or one. -/
def maskW (lab : Fin 4096 → BitVec 32) (r q : Fin 4096) : BitVec 32 := (IntOp.cmpi .eq (lab r) (lab q)).setWidth 32

/-- The same as a float. -/
def maskF (lab : Fin 4096 → BitVec 32) (r q : Fin 4096) : EReal := (((maskW lab r q).toInt : ℝ) : EReal)

/-- The similarity output. -/
def simOut (a b : SND.Idx → EReal) : SNN.Idx → EReal := fun i => dots a b (i 0) (i 1)

/-- The label-agreement output. -/
def maskOut (lab : Fin 4096 → BitVec 32) : SNN.Idx → BitVec 32 := fun i => maskW lab (i 0) (i 1)

/-- Row `r`'s term, streaming. -/
def rowTermS (a b : SND.Idx → EReal) (lab : Fin 4096 → BitVec 32) (r : Fin 4096) : EReal :=
  rowStream (fun q => logit a b r q) (fun q => maskF lab r q)

/-- Row `r`'s term, direct. -/
def rowTermD (a b : SND.Idx → EReal) (lab : Fin 4096 → BitVec 32) (r : Fin 4096) : EReal :=
  rowDirect (fun q => logit a b r q) (fun q => maskF lab r q)

/-- The loss output from normalized rows and labels: a rank-0 array. -/
def lossOut (t : Fin 4096 → EReal) : (⟨0, ![]⟩ : Shape).Idx → EReal := fun _ => lossOf t

end Cert.Contrast

end
-- ==== Proof.Consts.lean ====
/-
  The float constants the two programs spell, as the extended reals their bit patterns denote: −∞ (the running
  maximum's start), +∞ (the finiteness test's bound), the small `ε` under the norms, the temperature, and 4096.
-/
import Idealize.ShloMosaic.PureOps.Ideal
import Idealize.ShloMosaic.PureOps.Ideal.Laws
import proofs.«107857_j43052752175450_1_alg».proof.Proof.Spec

noncomputable section

namespace Cert.Contrast

open Idealize.ShloMosaic

/-- `0xFF800000` is −∞. -/
theorem ofBits_negInf : Ideal.ofBits .f32 0xFF800000#32 = (⊥ : EReal) := by
  simp [Ideal.ofBits, Ideal.ieee]

/-- `0x7F800000` is +∞. -/
theorem ofBits_posInf : Ideal.ofBits .f32 0x7F800000#32 = (⊤ : EReal) := by
  simp [Ideal.ofBits, Ideal.ieee]

/-- The `ε` under the norms, `0x322BCC77`, as a real. -/
def epsR : ℝ := 11258999 / 1125899906842624

theorem epsR_pos : 0 < epsR := by unfold epsR; norm_num

/-- `0x322BCC77` is `11258999 / 2^50`, a positive real. -/
theorem ofBits_eps : Ideal.ofBits .f32 0x322BCC77#32 = ((epsR : ℝ) : EReal) := by
  simp [Ideal.ofBits, Ideal.ieee, -EReal.coe_mul, epsR]; norm_num

theorem tempR_pos : 0 < tempR := by unfold tempR; norm_num

/-- The reference's temperature word `0x3D4CCCCD` is `13421773 / 2^28`. -/
theorem ofBits_temp : Ideal.ofBits .f32 0x3D4CCCCD#32 = ((tempR : ℝ) : EReal) := by
  simp [Ideal.ofBits, Ideal.ieee, -EReal.coe_mul, tempR]; norm_num

/-- `0x45800000` is 4096. -/
theorem ofBits_4096 : Ideal.ofBits .f32 0x45800000#32 = ((4096 : ℝ) : EReal) := by
  simp [Ideal.ofBits, Ideal.ieee, -EReal.coe_mul]; norm_num

/-- Dividing by the temperature is multiplying by its reciprocal, on every extended real. -/
theorem div_temp (x : EReal) : Ideal.div x ((tempR : ℝ) : EReal) = x * invT := by
  rw [Ideal.div_coe (ne_of_gt tempR_pos)]
  unfold invT tempR
  norm_num

/-- On a real, multiplying by the reciprocal temperature and then by the temperature is the identity. -/
theorem temp_cancel (y : ℝ) : (y : EReal) * invT * ((tempR : ℝ) : EReal) = (y : EReal) := by
  unfold invT tempR
  rw [← EReal.coe_mul, ← EReal.coe_mul]
  congr 1
  field_simp

end Cert.Contrast

end
-- ==== Proof.Finite.lean ====
/-
  Finiteness. The inputs are finite by the precondition, so every quantity the loss is built from is a real
  number: a row's sum of squares, its square root, the larger of that and `ε > 0`, the quotient by it, the inner
  products of such rows and their multiples by the reciprocal temperature. The mask is zero or one and is one on
  the diagonal (a label equals itself).
-/
import proofs.«107857_j43052752175450_1_alg».proof.Proof.Spec
import proofs.«107857_j43052752175450_1_alg».proof.Proof.Consts
import proofs.«107857_j43052752175450_1_alg».proof.Pre_finite_inputs
import proofs.«107857_j43052752175450_1_alg».proof.Proof.Gen.Pre_finite_inputs
import Idealize.ShloMosaic.Lib.ReduceAll

noncomputable section

namespace Cert.Contrast

open Idealize.ShloMosaic Idealize.ShloMosaic.ValueIdx

/-- An extended real whose absolute value is below +∞ is a real. -/
theorem real_of_abs_lt_top (x : EReal) (h : Ideal.cmp .olt (max x (-x)) (⊤ : EReal) = 1#1) : ∃ y : ℝ, x = (y : EReal) := by
  induction x using EReal.rec with
  | bot => simp [Ideal.cmp] at h
  | coe r => exact ⟨r, rfl⟩
  | top => simp [Ideal.cmp] at h

/-- A product of two reals is a real. -/
theorem mul_real {a b : EReal} (ha : ∃ y : ℝ, a = (y : EReal)) (hb : ∃ y : ℝ, b = (y : EReal)) :
    ∃ y : ℝ, a * b = (y : EReal) := by
  obtain ⟨ya, rfl⟩ := ha
  obtain ⟨yb, rfl⟩ := hb
  exact ⟨ya * yb, (EReal.coe_mul ya yb).symm⟩

/-- A finite sum of reals is a real. -/
theorem sum_real {ι : Type} (s : Finset ι) (f : ι → EReal) (hf : ∀ i ∈ s, ∃ y : ℝ, f i = (y : EReal)) :
    ∃ y : ℝ, ∑ i ∈ s, f i = (y : EReal) := by
  classical
  induction s using Finset.induction_on with
  | empty => exact ⟨0, by simp⟩
  | insert a s ha ih =>
    obtain ⟨ya, hya⟩ := hf a (Finset.mem_insert_self a s)
    obtain ⟨ys, hys⟩ := ih fun i hi => hf i (Finset.mem_insert_of_mem hi)
    exact ⟨ya + ys, by rw [Finset.sum_insert ha, hya, hys, EReal.coe_add]⟩

/-- A finite sum of nonnegative reals is a nonnegative real. -/
theorem sum_real_nonneg {ι : Type} (s : Finset ι) (f : ι → EReal) (hf : ∀ i ∈ s, ∃ y : ℝ, 0 ≤ y ∧ f i = (y : EReal)) :
    ∃ y : ℝ, 0 ≤ y ∧ ∑ i ∈ s, f i = (y : EReal) := by
  classical
  induction s using Finset.induction_on with
  | empty => exact ⟨0, le_refl 0, by simp⟩
  | insert a s ha ih =>
    obtain ⟨ya, hya0, hya⟩ := hf a (Finset.mem_insert_self a s)
    obtain ⟨ys, hys0, hys⟩ := ih fun i hi => hf i (Finset.mem_insert_of_mem hi)
    exact ⟨ya + ys, add_nonneg hya0 hys0, by rw [Finset.sum_insert ha, hya, hys, EReal.coe_add]⟩

/-- The larger of two reals, as extended reals, is the larger real. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The precondition, "every entry of both float inputs has absolute value below +∞", makes every entry a real. -/
theorem real_of_pre [Cert.Pre_finite_inputs.Facts] (a b : FVec Ideal Cert.Pre_finite_inputs.S4096x1024 .f32)
    (l : IVec Cert.Pre_finite_inputs.S4096 32)
    (h : Cert.Pre_finite_inputs.fn (F := Ideal) a b l = fun _ => 1#1) :
    (∀ i, ∃ y : ℝ, a i = (y : EReal)) ∧ (∀ i, ∃ y : ℝ, b i = (y : EReal)) := by
  haveI : Subsingleton Cert.Pre_finite_inputs.S_.Idx := ⟨fun a b => funext fun d => d.elim0⟩
  have h0 := congrFun h ValueIdx.ix0
  dsimp only [Cert.Pre_finite_inputs.fn] at h0
  obtain ⟨ha, hb⟩ := IntOp.andi_eq_one.1 (show IntOp.andi _ _ = 1#1 from h0)
  refine ⟨fun i => ?_, fun i => ?_⟩
  · have e := Host.reduce_andi_all _ _ _ _ _ ha i
    have e' : Ideal.cmp .olt (max (a i) (-(a i))) (Ideal.ofBits .f32 0x7F800000#32) = 1#1 := e
    rw [ofBits_posInf] at e'
    exact real_of_abs_lt_top _ e'
  · have e := Host.reduce_andi_all _ _ _ _ _ hb i
    have e' : Ideal.cmp .olt (max (b i) (-(b i))) (Ideal.ofBits .f32 0x7F800000#32) = 1#1 := e
    rw [ofBits_posInf] at e'
    exact real_of_abs_lt_top _ e'

/-- Unit-length scaling keeps a real array real (the divisor is at least `ε > 0`). -/
theorem unitRows_real (x : SND.Idx → EReal) (hx : ∀ i, ∃ y : ℝ, x i = (y : EReal)) :
    ∀ i, ∃ y : ℝ, unitRows x i = (y : EReal) := by
  intro i
  obtain ⟨s, hs0, hs⟩ := sum_real_nonneg Finset.univ (fun d : Fin 1024 => x (ix2 (i 0) d) * x (ix2 (i 0) d))
    (fun d _ => by
      obtain ⟨y, hy⟩ := hx (ix2 (i 0) d)
      exact ⟨y * y, mul_self_nonneg y, by rw [hy, EReal.coe_mul]⟩)
  obtain ⟨y, hy⟩ := hx i
  have hpos : max (Real.sqrt s) epsR ≠ 0 := ne_of_gt (lt_of_lt_of_le epsR_pos (le_max_right _ _))
  refine ⟨y * (1 / max (Real.sqrt s) epsR), ?_⟩
  unfold unitRows
  rw [hs, Ideal.sqrt_coe, if_neg (not_lt.2 hs0), ofBits_eps, max_coe, Ideal.div_coe hpos, hy, EReal.coe_mul]

/-- Inner products of real rows are real. -/
theorem dots_real (a b : SND.Idx → EReal) (ha : ∀ i, ∃ y : ℝ, a i = (y : EReal)) (hb : ∀ i, ∃ y : ℝ, b i = (y : EReal))
    (r q : Fin 4096) : ∃ y : ℝ, dots a b r q = (y : EReal) :=
  sum_real Finset.univ (fun k : Fin 1024 => a (ix2 r k) * b (ix2 q k)) fun k _ => mul_real (ha _) (hb _)

/-- So are the logits. -/
theorem logit_real (a b : SND.Idx → EReal) (ha : ∀ i, ∃ y : ℝ, a i = (y : EReal)) (hb : ∀ i, ∃ y : ℝ, b i = (y : EReal))
    (r q : Fin 4096) : ∃ y : ℝ, logit a b r q = (y : EReal) :=
  mul_real (dots_real a b ha hb r q) ⟨_, rfl⟩

/-- The mask is zero or one. -/
theorem maskF_zero_or_one (lab : Fin 4096 → BitVec 32) (r q : Fin 4096) : maskF lab r q = 0 ∨ maskF lab r q = 1 := by
  unfold maskF maskW
  rcases (by decide : ∀ b : BitVec 1, b = 0#1 ∨ b = 1#1) (IntOp.cmpi .eq (lab r) (lab q)) with h | h
  · left
    rw [h, show ((0#1 : BitVec 1).setWidth 32).toInt = 0 from by decide]
    simp
  · right
    rw [h, show ((1#1 : BitVec 1).setWidth 32).toInt = 1 from by decide]
    simp

/-- A row is its own positive. -/
theorem maskF_self (lab : Fin 4096 → BitVec 32) (r : Fin 4096) : maskF lab r r = 1 := by
  unfold maskF maskW
  rw [show IntOp.cmpi .eq (lab r) (lab r) = 1#1 from by simp [IntOp.cmpi],
    show ((1#1 : BitVec 1).setWidth 32).toInt = 1 from by decide]
  simp

end Cert.Contrast

end
-- ==== Proof.RefValue.lean ====
/-
  What the reference computes, in the shared vocabulary.

  The reference scales the rows of both inputs to unit length, takes all inner products in one matrix product and
  divides by the temperature: the logits. Its similarity result is the logits times the temperature again; its label
  result compares every label with every label; and its loss is minus the mean over rows of the masked mean of the
  log-softmax, each row's maximum and sum of exponentials taken over the whole row at once: the direct formula.
-/
import proofs.«107857_j43052752175450_1_alg».proof.Defs
import proofs.«107857_j43052752175450_1_alg».proof.Proof.Gen.ReferenceIdeal.Run
import proofs.«107857_j43052752175450_1_alg».proof.Proof.Gen.ReferenceIdeal.Read
import proofs.«107857_j43052752175450_1_alg».proof.Proof.Spec
import proofs.«107857_j43052752175450_1_alg».proof.Proof.Consts
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Contrast

/-- The labels as a function of the row. -/
abbrev labOf (x2 : S4096.Idx → BitVec 32) : Fin 4096 → BitVec 32 := fun r => x2 (ix1 r)

/-- The first input with its rows scaled: the stage the reference calls its fourth value. -/
theorem scaled_a (x0 : SND.Idx → EReal) : (val_main_v4 (F := Ideal) x0 : SND.Idx → EReal) = unitRows x0 := by
  funext i
  rw [val_main_v4_apply, val_main_v3_apply, val_main_v2_apply, val_main_v0_apply, val_main_call0_v2_apply,
    val_main_call0_v1_apply, val_main_v1_apply, val_main_cst_apply, val_main_call0_cst_apply]
  simp only [val_main_call0_v0_apply]
  unfold unitRows
  have hidx : ∀ k : Fin 1024, idx_main_call0_v1 (idx_main_call0_v2 (idx_main_v3 i)) k = ix2 (i 0) k :=
    fun k => funext fun a => Fin.ext (by match a with | ⟨0, _⟩ => rfl | ⟨1, _⟩ => rfl)
  simp only [hidx]
  show Ideal.div (x0 i) (max (Ideal.sqrt (Ideal.ofBits .f32 0x00000000#32
      + ∑ d : Fin 1024, x0 (ix2 (i 0) d) * x0 (ix2 (i 0) d))) (Ideal.ofBits .f32 0x322BCC77#32)) = _
  rw [Ideal.ofBits_zero_f32, zero_add]

/-- The second input with its rows scaled. -/
theorem scaled_b (x1 : SND.Idx → EReal) : (val_main_v9 (F := Ideal) x1 : SND.Idx → EReal) = unitRows x1 := by
  funext i
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply]
  unfold unitRows
  have hidx : ∀ k : Fin 1024, idx_main_call1_v1 (idx_main_call1_v2 (idx_main_v8 i)) k = ix2 (i 0) k :=
    fun k => funext fun a => Fin.ext (by match a with | ⟨0, _⟩ => rfl | ⟨1, _⟩ => rfl)
  simp only [hidx]
  show Ideal.div (x1 i) (max (Ideal.sqrt (Ideal.ofBits .f32 0x00000000#32
      + ∑ d : Fin 1024, x1 (ix2 (i 0) d) * x1 (ix2 (i 0) d))) (Ideal.ofBits .f32 0x322BCC77#32)) = _
  rw [Ideal.ofBits_zero_f32, zero_add]

/-- The logits: inner products of scaled rows over the temperature. -/
theorem logits_apply (x0 x1 : SND.Idx → EReal) (r q : Fin 4096) :
    (val_main_v12 (F := Ideal) x0 x1 : SNN.Idx → EReal) (ix2 r q) = logit (unitRows x0) (unitRows x1) r q := by
  rw [val_main_v12_apply, val_main_v10_apply, val_main_v11_apply, val_main_cst_1_apply, scaled_a, scaled_b]
  -- the matrix product at (r, q) reads row r of the left factor and row q of the right one
  have hl : ∀ k : Fin 1024, lidx_main_v10 (ix2 r q) k = ix2 r k :=
    fun k => funext fun a => Fin.ext (by match a with | ⟨0, _⟩ => rfl | ⟨1, _⟩ => rfl)
  have hr : ∀ k : Fin 1024, ridx_main_v10 (ix2 r q) k = ix2 q k :=
    fun k => funext fun a => Fin.ext (by match a with | ⟨0, _⟩ => rfl | ⟨1, _⟩ => rfl)
  simp only [hl, hr]
  show Ideal.div (dots (unitRows x0) (unitRows x1) r q) (Ideal.ofBits .f32 0x3D4CCCCD#32) = _
  rw [ofBits_temp, div_temp]
  rfl

/-- The similarity result: the logit times the temperature. -/
theorem sim_eq (x0 x1 : SND.Idx → EReal) :
    (val_main_v38 (F := Ideal) x0 x1 : SNN.Idx → EReal)
      = fun i => logit (unitRows x0) (unitRows x1) (i 0) (i 1) * ((tempR : ℝ) : EReal) := by
  funext i
  obtain ⟨r, q, rfl⟩ : ∃ (r q : Fin 4096), i = ix2 r q := ⟨i 0, i 1, eq_ix2 i⟩
  rw [val_main_v38_apply, val_main_v37_apply, val_main_cst_8_apply, logits_apply]
  show logit (unitRows x0) (unitRows x1) r q * Ideal.ofBits .f32 0x3D4CCCCD#32
    = logit (unitRows x0) (unitRows x1) r q * ((tempR : ℝ) : EReal)
  rw [ofBits_temp]

/-- The label result. -/
theorem mask_eq (x2 : S4096.Idx → BitVec 32) :
    (val_main_v18 (F := Ideal) x2 : SNN.Idx → BitVec 32) = maskOut (labOf x2) := by
  funext i
  rw [val_main_v18_apply, val_main_v17_apply, val_main_v15_apply, val_main_v16_apply, val_main_v13_apply,
    val_main_v14_apply]
  -- the column of labels spread along the rows reads label `i 0`; the row of labels spread down the columns, label `i 1`
  have h0 : idx_main_v13 (idx_main_v15 i) = ix1 (i 0) := funext fun a => Fin.ext (by match a with | ⟨0, _⟩ => rfl)
  have h1 : idx_main_v14 (idx_main_v16 i) = ix1 (i 1) := funext fun a => Fin.ext (by match a with | ⟨0, _⟩ => rfl)
  rw [h0, h1]
  rfl

/-- A row index with column `k` put back is (r, k). -/
theorem lift_row (h : S4096x4096.Reduces [1] S4096) (r : Fin 4096) (k : Fin (S4096x4096.size 1)) :
    h.lift (ix1 r) k = ix2 r (⟨k.val, k.isLt⟩ : Fin 4096) :=
  funext fun a => Fin.ext (by match a with | ⟨0, _⟩ => rfl | ⟨1, _⟩ => rfl)

/-- A row's maximum logit: the fold of `max` from −∞ over the row. -/
theorem rowMax_apply (x0 x1 : SND.Idx → EReal) (r : Fin 4096) :
    (val_main_v20 (F := Ideal) x0 x1 : S4096.Idx → EReal) (ix1 r)
      = Finset.univ.fold max ⊥ fun q => logit (unitRows x0) (unitRows x1) r q := by
  unfold val_main_v20
  have h : S4096x4096.Reduces [1] S4096 := by decide
  rw [Host.reduce_eq_fold_single FloatOps.maximumf _ _ reducesTo_S4096x4096_S4096_d1 h h_S_]
  have hf : ((val_main_v12 (F := Ideal) x0 x1) ∘ h.lift (ix1 r))
      = fun q : Fin 4096 => logit (unitRows x0) (unitRows x1) r q :=
    funext fun q => by
      show val_main_v12 (F := Ideal) x0 x1 (h.lift (ix1 r) q) = _
      rw [lift_row h r q]
      exact logits_apply x0 x1 r _
  rw [hf]
  show Finset.univ.fold max (Ideal.ofBits .f32 0xFF800000#32) (fun q : Fin 4096 => logit (unitRows x0) (unitRows x1) r q) = _
  rw [ofBits_negInf]

/-- The logit less its row's maximum. -/
theorem shifted_apply (x0 x1 : SND.Idx → EReal) (r q : Fin 4096) :
    (val_main_v23 (F := Ideal) x0 x1 : SNN.Idx → EReal) (ix2 r q)
      = logit (unitRows x0) (unitRows x1) r q
        - Finset.univ.fold max ⊥ fun q' => logit (unitRows x0) (unitRows x1) r q' := by
  rw [val_main_v23_apply, val_main_v22_apply, val_main_v21_apply, logits_apply]
  have h : idx_main_v21 (idx_main_v22 (ix2 r q)) = ix1 r := funext fun a => Fin.ext (by match a with | ⟨0, _⟩ => rfl)
  rw [h, rowMax_apply]
  rfl

/-- The row's sum of exponentials of the shifted logits. -/
theorem sumExp_apply (x0 x1 : SND.Idx → EReal) (r : Fin 4096) :
    (val_main_v25 (F := Ideal) x0 x1 : S4096.Idx → EReal) (ix1 r)
      = ∑ q : Fin 4096, Ideal.exp (logit (unitRows x0) (unitRows x1) r q
          - Finset.univ.fold max ⊥ fun q' => logit (unitRows x0) (unitRows x1) r q') := by
  rw [val_main_v25_apply, val_main_cst_3_apply]
  have h : ∀ k : Fin 4096, idx_main_v25 (ix1 r) k = ix2 r k :=
    fun k => funext fun a => Fin.ext (by match a with | ⟨0, _⟩ => rfl | ⟨1, _⟩ => rfl)
  simp only [h, val_main_v24_apply, shifted_apply, Ideal.hostUnary_exp_def, Ideal.ofBits_def, Ideal.ofBits_zero_f32,
    zero_add]

/-- The log-probability: the shifted logit less the logarithm of the row's sum of exponentials. -/
theorem logProb_apply (x0 x1 : SND.Idx → EReal) (r q : Fin 4096) :
    (val_main_v29 (F := Ideal) x0 x1 : SNN.Idx → EReal) (ix2 r q)
      = (logit (unitRows x0) (unitRows x1) r q
          - Finset.univ.fold max ⊥ fun q' => logit (unitRows x0) (unitRows x1) r q')
        - Ideal.log (∑ q' : Fin 4096, Ideal.exp (logit (unitRows x0) (unitRows x1) r q'
            - Finset.univ.fold max ⊥ fun q'' => logit (unitRows x0) (unitRows x1) r q'')) := by
  rw [val_main_v29_apply, val_main_v28_apply, val_main_v27_apply, val_main_v26_apply, shifted_apply]
  have h : idx_main_v26 (idx_main_v28 (ix2 r q)) = ix1 r := funext fun a => Fin.ext (by match a with | ⟨0, _⟩ => rfl)
  rw [h, sumExp_apply]
  rfl

/-- The label agreement as a float. -/
theorem maskF_apply (x2 : S4096.Idx → BitVec 32) (r q : Fin 4096) :
    (val_main_v19 (F := Ideal) x2 : SNN.Idx → EReal) (ix2 r q) = maskF (labOf x2) r q := by
  rw [val_main_v19_apply, mask_eq]
  rfl

/-- A row's masked mean log-probability, as the reference computes it, is the direct formula. -/
theorem rowTerm_apply (x0 x1 : SND.Idx → EReal) (x2 : S4096.Idx → BitVec 32) (r : Fin 4096) :
    (val_main_v33 (F := Ideal) x0 x1 x2 : S4096.Idx → EReal) (ix1 r)
      = rowTermD (unitRows x0) (unitRows x1) (labOf x2) r := by
  rw [val_main_v33_apply, val_main_v31_apply, val_main_v32_apply, val_main_cst_4_apply, val_main_cst_5_apply]
  have h1 : ∀ k : Fin 4096, idx_main_v31 (ix1 r) k = ix2 r k :=
    fun k => funext fun a => Fin.ext (by match a with | ⟨0, _⟩ => rfl | ⟨1, _⟩ => rfl)
  have h2 : ∀ k : Fin 4096, idx_main_v32 (ix1 r) k = ix2 r k :=
    fun k => funext fun a => Fin.ext (by match a with | ⟨0, _⟩ => rfl | ⟨1, _⟩ => rfl)
  simp only [h1, h2, val_main_v30_apply, maskF_apply, logProb_apply, Ideal.ofBits_def, Ideal.ofBits_zero_f32, zero_add,
    Ideal.mulf_def, Ideal.hostDivf_def]
  rfl

/-- The indices of a vector of length 4096 are the numbers below 4096. -/
def idxEquiv1 : Fin 4096 ≃ S4096.Idx where
  toFun := ix1
  invFun := fun j => j 0
  left_inv := fun _ => rfl
  right_inv := fun j => (eq_ix1 j).symm

/-- The loss result. -/
theorem loss_eq (x0 x1 : SND.Idx → EReal) (x2 : S4096.Idx → BitVec 32) :
    (val_main_v36 (F := Ideal) x0 x1 x2 : S_.Idx → EReal)
      = lossOut (rowTermD (unitRows x0) (unitRows x1) (labOf x2)) := by
  funext i
  rw [val_main_v36_apply, val_main_v35_apply, val_main_v34_apply, val_main_cst_6_apply, val_main_cst_7_apply]
  -- the sum over the vector's indices is the sum over the rows
  have hs : ∑ j : S4096.Idx, val_main_v33 (F := Ideal) x0 x1 x2 j
      = ∑ r : Fin 4096, rowTermD (unitRows x0) (unitRows x1) (labOf x2) r :=
    (Fintype.sum_equiv idxEquiv1 _ _ fun r => (rowTerm_apply x0 x1 x2 r).symm).symm
  rw [hs]
  show -(Ideal.div (Ideal.ofBits .f32 0x00000000#32 + ∑ r : Fin 4096, rowTermD (unitRows x0) (unitRows x1) (labOf x2) r)
    (Ideal.ofBits .f32 0x45800000#32)) = _
  rw [Ideal.ofBits_zero_f32, zero_add, ofBits_4096]
  rfl

/-- The reference's run, read: its three results in the shared vocabulary, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v38) : SNN.Idx → EReal)
        = (fun i => logit (unitRows (m ((c.tc : Thread nD τ).loc main_arg0))) (unitRows (m ((c.tc : Thread nD τ).loc main_arg1))) (i 0) (i 1)
            * ((tempR : ℝ) : EReal))
      ∧ (r.2.mem ((c.tc : Thread nD τ).loc main_v36) : S_.Idx → EReal)
        = lossOut (rowTermD (unitRows (m ((c.tc : Thread nD τ).loc main_arg0))) (unitRows (m ((c.tc : Thread nD τ).loc main_arg1)))
            (labOf (m ((c.tc : Thread nD τ).loc main_arg2))))
      ∧ (r.2.mem ((c.tc : Thread nD τ).loc main_v18) : SNN.Idx → BitVec 32) = maskOut (labOf (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono (fun _ h c =>
    ⟨(h c).1.trans ((val_main_v38_eq (F := Ideal) _ _).trans (sim_eq _ _)),
      (h c).2.1.trans ((val_main_v36_eq (F := Ideal) m c).trans (loss_eq _ _ _)),
      (h c).2.2.1.trans ((val_main_v18_eq (F := Ideal) _).trans (mask_eq _)),
      (h c).2.2.2⟩)
    (Cert.ReferenceIdeal.Value.run (F := Ideal) m ρ)

end Cert.ReferenceIdeal.RefValue

end
-- ==== Proof.Softmax.lean ====
/-
  The streaming softmax equals the direct one.

  A row's logits `x q` (all finite) and its zero-one mask `w q` (at least one positive) are visited in eight
  blocks of 512 columns. The running maximum after `n` blocks is the maximum of the first `512·n` logits; the
  running sum, rescaled by `exp (m_old − m_new)` each time the maximum moves, is `Σ exp (x q − m)` over those
  columns, because `exp (a − b) · exp (b − c) = exp (a − c)` on the reals; the masked sums simply add up. After the
  last block the state holds the row's maximum `M`, `L = Σ exp (x − M)`, `S = Σ w·x` and `C = Σ w ≥ 1`, and
  `S / C − M − log L = (Σ w · ((x − M) − log L)) / C` by distributing the finite constant `M + log L` over the mask.
-/
import proofs.«107857_j43052752175450_1_alg».proof.Proof.Spec
import Mathlib.Data.Finset.Fold
import Mathlib.Algebra.BigOperators.Group.Finset.Basic
import Mathlib.Algebra.BigOperators.Ring.Finset
import Mathlib.Analysis.SpecialFunctions.Exp
import Mathlib.Analysis.SpecialFunctions.Log.Basic
import Mathlib.Tactic.FieldSimp
import Mathlib.Tactic.Ring

noncomputable section

namespace Cert.Contrast

namespace Softmax

open Idealize.ShloMosaic

/-! ## Sums and maxima over sets of columns -/

/-- The coercion of a finite sum of reals is the sum of the coercions. -/
theorem coe_finsum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The maximum of the logits over a set of columns; `−∞` over no column. -/
def colMax (x : Fin 4096 → EReal) (s : Finset (Fin 4096)) : EReal := s.fold max ⊥ x

/-- The state that summarizes a set of columns: their maximum, the sum of exponentials relative to it,
    the masked logit sum and the positive count. -/
def colState (x w : Fin 4096 → EReal) (s : Finset (Fin 4096)) : Acc :=
  (colMax x s, ∑ q ∈ s, Ideal.exp (x q - colMax x s), ∑ q ∈ s, w q * x q, ∑ q ∈ s, w q)

/-- Over a nonempty set of finite logits the maximum is finite. -/
theorem colMax_real (y : Fin 4096 → ℝ) {s : Finset (Fin 4096)} (hs : s.Nonempty) :
    ∃ m : ℝ, colMax (fun q => (y q : EReal)) s = (m : EReal) := by
  obtain ⟨q, hq⟩ := hs
  have hbot : colMax (fun q => (y q : EReal)) s ≠ ⊥ :=
    ne_of_gt ((Finset.lt_fold_max _).mpr (Or.inr ⟨q, hq, EReal.bot_lt_coe _⟩))
  have htop : colMax (fun q => (y q : EReal)) s ≠ ⊤ :=
    ne_of_lt ((Finset.fold_max_lt _).mpr ⟨bot_lt_top, fun q _ => EReal.coe_lt_top _⟩)
  exact ⟨_, (EReal.coe_toReal htop hbot).symm⟩

/-- The maximum over a disjoint union is the larger of the two maxima. -/
theorem colMax_union (x : Fin 4096 → EReal) {s t : Finset (Fin 4096)} (h : Disjoint s t) :
    colMax x (s ∪ t) = max (colMax x s) (colMax x t) := by
  have key := Finset.fold_union_inter (op := max) (f := x) (s₁ := s) (s₂ := t) (b₁ := ⊥) (b₂ := ⊥)
  rw [Finset.disjoint_iff_inter_eq_empty.mp h, Finset.fold_empty, max_bot_right] at key
  exact key

/-- Moving the reference point of a sum of exponentials from `m` to `m'`:
    `exp (m − m') · Σ exp (y − m) = Σ exp (y − m')`, from `exp (a − b) · exp (c − a) = exp (c − b)` on the reals. -/
theorem rescale (y : Fin 4096 → ℝ) (s : Finset (Fin 4096)) (m m' : ℝ) :
    Ideal.exp ((m : EReal) - (m' : EReal)) * ∑ q ∈ s, Ideal.exp ((y q : EReal) - (m : EReal))
      = ∑ q ∈ s, Ideal.exp ((y q : EReal) - (m' : EReal)) := by
  simp only [← EReal.coe_sub, Ideal.exp_coe]
  rw [← coe_finsum, ← EReal.coe_mul, ← coe_finsum, Finset.mul_sum]
  congr 1
  refine Finset.sum_congr rfl fun q _ => ?_
  rw [← Real.exp_add]
  congr 1
  ring

/-! ## One block of columns folded into the state -/

/-- Distinct entries of a column block are distinct columns. -/
theorem col_injective (J : Fin 8) : Function.Injective (col J) := by
  intro a b hab
  have h := congrArg Fin.val hab
  simp only [col] at h
  exact Fin.ext (by omega)

/-- Folding block `J` into the state of a set of columns `s` that it does not meet gives the state of the union. -/
theorem step_colState (y : Fin 4096 → ℝ) (w : Fin 4096 → EReal) (J : Fin 8) (s : Finset (Fin 4096))
    (h : Disjoint s (Finset.univ.image (col J))) :
    step (fun j => (y (col J j) : EReal)) (fun j => w (col J j)) (colState (fun q => (y q : EReal)) w s)
      = colState (fun q => (y q : EReal)) w (s ∪ Finset.univ.image (col J)) := by
  have hinj : Set.InjOn (col J) (Finset.univ : Finset (Fin 512)) := (col_injective J).injOn
  have hB : Finset.univ.fold max ⊥ (fun j => (y (col J j) : EReal))
      = colMax (fun q => (y q : EReal)) (Finset.univ.image (col J)) :=
    (Finset.fold_image (f := fun q => (y q : EReal)) hinj).symm
  have hM : max (colMax (fun q => (y q : EReal)) s) (Finset.univ.fold max ⊥ (fun j => (y (col J j) : EReal)))
      = colMax (fun q => (y q : EReal)) (s ∪ Finset.univ.image (col J)) := by
    rw [hB, colMax_union _ h]
  have hsum : ∀ f : Fin 4096 → EReal, ∑ j : Fin 512, f (col J j) = ∑ q ∈ Finset.univ.image (col J), f q :=
    fun f => (Finset.sum_image (f := f) hinj).symm
  refine Prod.ext ?_ (Prod.ext ?_ (Prod.ext ?_ ?_))
  · exact hM
  · show Ideal.exp (colMax (fun q => (y q : EReal)) s
            - max (colMax (fun q => (y q : EReal)) s) (Finset.univ.fold max ⊥ (fun j => (y (col J j) : EReal))))
          * (∑ q ∈ s, Ideal.exp ((y q : EReal) - colMax (fun q => (y q : EReal)) s))
        + ∑ j : Fin 512, Ideal.exp ((y (col J j) : EReal)
            - max (colMax (fun q => (y q : EReal)) s) (Finset.univ.fold max ⊥ (fun j => (y (col J j) : EReal))))
        = ∑ q ∈ s ∪ Finset.univ.image (col J), Ideal.exp ((y q : EReal) - colMax (fun q => (y q : EReal)) (s ∪ Finset.univ.image (col J)))
    rw [hM, Finset.sum_union h, hsum (fun q => Ideal.exp ((y q : EReal) - colMax (fun q => (y q : EReal)) (s ∪ Finset.univ.image (col J))))]
    congr 1
    rcases s.eq_empty_or_nonempty with hs | hs
    · subst hs
      simp only [Finset.sum_empty, mul_zero]
    · obtain ⟨m, hm⟩ := colMax_real y hs
      obtain ⟨m', hm'⟩ := colMax_real y (hs.mono (Finset.subset_union_left (s₂ := Finset.univ.image (col J))))
      rw [hm, hm']
      exact rescale y s m m'
  · show (∑ q ∈ s, w q * (y q : EReal)) + ∑ j : Fin 512, w (col J j) * (y (col J j) : EReal) = ∑ q ∈ s ∪ Finset.univ.image (col J), w q * (y q : EReal)
    rw [Finset.sum_union h, hsum (fun q => w q * (y q : EReal))]
  · show (∑ q ∈ s, w q) + ∑ j : Fin 512, w (col J j) = ∑ q ∈ s ∪ Finset.univ.image (col J), w q
    rw [Finset.sum_union h, hsum w]

/-! ## The state after `n` blocks -/

/-- The columns of the first `n` blocks. -/
def cols (n : ℕ) : Finset (Fin 4096) := Finset.univ.filter (fun q => q.val < 512 * n)

theorem cols_zero : cols 0 = ∅ := by
  apply Finset.filter_false_of_mem
  intro q _
  omega

/-- The first `n + 1` blocks are the first `n` together with block `n`. -/
theorem cols_succ (n : ℕ) (h : n + 1 ≤ 8) : cols (n + 1) = cols n ∪ Finset.univ.image (col ⟨n, h⟩) := by
  ext q
  simp only [cols, Finset.mem_union, Finset.mem_filter, Finset.mem_univ, true_and, Finset.mem_image]
  constructor
  · intro hq
    by_cases hlt : q.val < 512 * n
    · exact Or.inl hlt
    · refine Or.inr ⟨⟨q.val - 512 * n, by omega⟩, ?_⟩
      apply Fin.ext
      simp only [col]
      omega
  · rintro (hq | ⟨j, rfl⟩)
    · omega
    · have := j.isLt
      simp only [col]
      omega

/-- Block `n` does not meet the first `n` blocks. -/
theorem cols_disjoint (n : ℕ) (h : n + 1 ≤ 8) : Disjoint (cols n) (Finset.univ.image (col ⟨n, h⟩)) := by
  rw [Finset.disjoint_left]
  intro q hq hq'
  simp only [cols, Finset.mem_filter, Finset.mem_univ, true_and] at hq
  simp only [Finset.mem_image, Finset.mem_univ, true_and] at hq'
  obtain ⟨j, rfl⟩ := hq'
  simp only [col] at hq
  omega

/-- All eight blocks are all the columns. -/
theorem cols_eight : cols 8 = Finset.univ := by
  apply Finset.filter_true_of_mem
  intro q _
  have := q.isLt
  omega

/-- After `n` blocks the streaming state is the state of the first `n` blocks' columns. -/
theorem accAfter_eq (y : Fin 4096 → ℝ) (w : Fin 4096 → EReal) :
    ∀ (n : ℕ) (h : n ≤ 8), accAfter (fun q => (y q : EReal)) w n h = colState (fun q => (y q : EReal)) w (cols n)
  | 0, _ => by
    rw [cols_zero]
    simp only [accAfter, acc0, colState, colMax, Finset.fold_empty, Finset.sum_empty]
  | n + 1, h => by
    rw [accAfter, accAfter_eq y w n (Nat.le_of_succ_le h), cols_succ n h]
    exact step_colState y w ⟨n, h⟩ (cols n) (cols_disjoint n h)

/-! ## Reading the term off the final state -/

/-- With all columns in, `s / c − m − log l` is the masked mean of the log-probabilities: the finite constant
    `m + log l` distributes over the mask, whose sum `c` is not zero. -/
theorem finish_colState_univ (y v : Fin 4096 → ℝ) (hv : ∀ q, v q = 0 ∨ v q = 1) (h1 : ∃ q, v q = 1) :
    finish (colState (fun q => (y q : EReal)) (fun q => (v q : EReal)) Finset.univ)
      = rowDirect (fun q => (y q : EReal)) (fun q => (v q : EReal)) := by
  obtain ⟨m, hm⟩ := colMax_real y (Finset.univ_nonempty (α := Fin 4096))
  have hm' : Finset.univ.fold max ⊥ (fun q => (y q : EReal)) = (m : EReal) := hm
  -- the sum of exponentials is a positive real
  have hl : 0 < ∑ q : Fin 4096, Real.exp (y q - m) :=
    Finset.sum_pos (fun q _ => Real.exp_pos _) Finset.univ_nonempty
  -- the positive count is a real that is at least one
  have hc : (∑ q : Fin 4096, v q) ≠ 0 := by
    obtain ⟨q0, hq0⟩ := h1
    have hnn : ∀ q ∈ (Finset.univ : Finset (Fin 4096)), 0 ≤ v q := by
      intro q _
      rcases hv q with h | h <;> rw [h]
      exact zero_le_one
    have := Finset.single_le_sum hnn (Finset.mem_univ q0)
    rw [hq0] at this
    exact ne_of_gt (lt_of_lt_of_le zero_lt_one this)
  have hL : (∑ q : Fin 4096, Ideal.exp ((y q : EReal) - (m : EReal)))
      = ((∑ q : Fin 4096, Real.exp (y q - m) : ℝ) : EReal) := by
    simp only [← EReal.coe_sub, Ideal.exp_coe]
    rw [coe_finsum]
  have hlog : Ideal.log ((∑ q : Fin 4096, Real.exp (y q - m) : ℝ) : EReal)
      = ((Real.log (∑ q : Fin 4096, Real.exp (y q - m)) : ℝ) : EReal) := by
    rw [Ideal.log_coe, if_neg (not_le.mpr hl)]
  have hS : (∑ q : Fin 4096, (v q : EReal) * (y q : EReal)) = ((∑ q : Fin 4096, v q * y q : ℝ) : EReal) := by
    simp only [← EReal.coe_mul]
    rw [coe_finsum]
  have hC : (∑ q : Fin 4096, (v q : EReal)) = ((∑ q : Fin 4096, v q : ℝ) : EReal) := by
    rw [coe_finsum]
  have hD : (∑ q : Fin 4096, (v q : EReal) * (((y q : EReal) - (m : EReal))
        - ((Real.log (∑ q : Fin 4096, Real.exp (y q - m)) : ℝ) : EReal)))
      = ((∑ q : Fin 4096, v q * ((y q - m) - Real.log (∑ q : Fin 4096, Real.exp (y q - m))) : ℝ) : EReal) := by
    simp only [← EReal.coe_sub, ← EReal.coe_mul]
    rw [coe_finsum]
  show Ideal.div (∑ q : Fin 4096, (v q : EReal) * (y q : EReal)) (∑ q : Fin 4096, (v q : EReal))
        - colMax (fun q => (y q : EReal)) Finset.univ
        - Ideal.log (∑ q : Fin 4096, Ideal.exp ((y q : EReal) - colMax (fun q => (y q : EReal)) Finset.univ))
      = Ideal.div
          (∑ q : Fin 4096, (v q : EReal) * (((y q : EReal) - Finset.univ.fold max ⊥ (fun q => (y q : EReal)))
            - Ideal.log (∑ q' : Fin 4096, Ideal.exp ((y q' : EReal) - Finset.univ.fold max ⊥ (fun q => (y q : EReal))))))
          (∑ q : Fin 4096, (v q : EReal))
  rw [hm, hm', hL, hlog, hS, hC, hD, Ideal.div_coe hc, Ideal.div_coe hc, ← EReal.coe_mul, ← EReal.coe_mul,
    ← EReal.coe_sub, ← EReal.coe_sub, EReal.coe_eq_coe_iff]
  -- the identity on the reals
  have hsplit : (∑ q : Fin 4096, v q * ((y q - m) - Real.log (∑ q : Fin 4096, Real.exp (y q - m))))
      = (∑ q : Fin 4096, v q * y q) - (∑ q : Fin 4096, v q) * (m + Real.log (∑ q : Fin 4096, Real.exp (y q - m))) := by
    rw [Finset.sum_mul, ← Finset.sum_sub_distrib]
    refine Finset.sum_congr rfl fun q _ => ?_
    ring
  rw [hsplit]
  field_simp
  ring

end Softmax

open Softmax

/-- On finite logits with a zero-one mask that has a positive, the streaming term is the direct term. -/
theorem rowStream_eq_rowDirect (x w : Fin 4096 → EReal) (hx : ∀ q, ∃ y : ℝ, x q = (y : EReal))
    (hw : ∀ q, w q = 0 ∨ w q = 1) (h1 : ∃ q, w q = 1) : rowStream x w = rowDirect x w := by
  choose y hy using hx
  have hw' : ∀ q, ∃ v : ℝ, w q = (v : EReal) ∧ (v = 0 ∨ v = 1) := by
    intro q
    rcases hw q with h | h
    · exact ⟨0, by rw [h, EReal.coe_zero], Or.inl rfl⟩
    · exact ⟨1, by rw [h, EReal.coe_one], Or.inr rfl⟩
  choose v hv hv01 using hw'
  obtain rfl : x = fun q => (y q : EReal) := funext hy
  obtain rfl : w = fun q => (v q : EReal) := funext hv
  have h1' : ∃ q, v q = 1 := by
    obtain ⟨q, hq⟩ := h1
    have hq' : (v q : EReal) = ((1 : ℝ) : EReal) := hq
    exact ⟨q, EReal.coe_eq_coe_iff.mp hq'⟩
  unfold rowStream
  rw [accAfter_eq, cols_eight]
  exact finish_colState_univ y v hv01 h1'

end Cert.Contrast

end
-- ==== Proof.KPieces.lean ====
/-
  What one grid point's body leaves behind, as terms of its loaded blocks.

  At a point the body loads a 512×1024 block of each normalized array, a 512×1 column and a 1×512 row of labels,
  and the four 512×1 running statistics (maximum, exponential sum, masked logit sum, positive count). It stores the
  512×512 similarity tile and label-agreement tile, and the updated statistics; at the first column block of a row
  block the statistics are first reset (to −∞ and zeros), and at the last the per-row term is stored as well. Each
  lemma below reads one stored buffer back as the stored value: an expression in the loaded blocks — and, where a
  buffer is loaded after it was stored in the same point, in the value stored.
-/
import proofs.«107857_j43052752175450_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F] [Named F]

theorem hz : (![0, 0] : Fin 2 → Nat) = fun _ => 0 := funext fun a => by fin_cases a <;> rfl

/-! ## First column block of a row block: the statistics are reset, then updated -/

/-- The similarity tile is the product of the two blocks. -/
theorem simTile_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x1024 .bf16) (x1 : Vec F S512x1024 .bf16) (x2 : Vec F S512x1 .i32) (x3 : Vec F S1x512 .i32) :
    out0_A_4 c i arg2 harg2 arg3 harg3 arg4 harg4 arg5 harg5 arg6 harg6 arg7 harg7 arg8 harg8 arg9 harg9 arg10 harg10 arg11 harg11 arg12 harg12 hc0 hc1 x0 x1 x2 x3 = k0_pay10 x0 x1 := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The agreement tile compares the label column with the label row. -/
theorem maskTile_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x1024 .bf16) (x1 : Vec F S512x1024 .bf16) (x2 : Vec F S512x1 .i32) (x3 : Vec F S1x512 .i32) :
    out0_A_5 c i arg2 harg2 arg3 harg3 arg4 harg4 arg5 harg5 arg6 harg6 arg7 harg7 arg8 harg8 arg9 harg9 arg10 harg10 arg11 harg11 arg12 harg12 hc0 hc1 x0 x1 x2 x3 = k0_pay12 x2 x3 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The running maximum, from the reset value. -/
theorem max_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x1024 .bf16) (x1 : Vec F S512x1024 .bf16) (x2 : Vec F S512x1 .i32) (x3 : Vec F S1x512 .i32) :
    sout0_A_0 c i arg2 harg2 arg3 harg3 arg4 harg4 arg5 harg5 arg6 harg6 arg7 harg7 arg8 harg8 arg9 harg9 arg10 harg10 arg11 harg11 arg12 harg12 hc0 hc1 x0 x1 x2 x3 = k0_pay4 (k0_pay14 x0 x1 k0_pay6) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The exponential sum, from the reset values. -/
theorem expSum_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x1024 .bf16) (x1 : Vec F S512x1024 .bf16) (x2 : Vec F S512x1 .i32) (x3 : Vec F S1x512 .i32) :
    sout0_A_1 c i arg2 harg2 arg3 harg3 arg4 harg4 arg5 harg5 arg6 harg6 arg7 harg7 arg8 harg8 arg9 harg9 arg10 harg10 arg11 harg11 arg12 harg12 hc0 hc1 x0 x1 x2 x3 = k0_pay1 (k0_pay15 x0 x1 k0_pay6 k0_pay6) (k0_pay16 x0 x1 k0_pay6) k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The masked logit sum, from the reset value. -/
theorem logitSum_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x1024 .bf16) (x1 : Vec F S512x1024 .bf16) (x2 : Vec F S512x1 .i32) (x3 : Vec F S1x512 .i32) :
    sout0_A_2 c i arg2 harg2 arg3 harg3 arg4 harg4 arg5 harg5 arg6 harg6 arg7 harg7 arg8 harg8 arg9 harg9 arg10 harg10 arg11 harg11 arg12 harg12 hc0 hc1 x0 x1 x2 x3 = k0_pay2 (k0_pay11 x0 x1) (k0_pay13 x2 x3) k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The positive count, from the reset value. -/
theorem count_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x1024 .bf16) (x1 : Vec F S512x1024 .bf16) (x2 : Vec F S512x1 .i32) (x3 : Vec F S1x512 .i32) :
    sout0_A_3 c i arg2 harg2 arg3 harg3 arg4 harg4 arg5 harg5 arg6 harg6 arg7 harg7 arg8 harg8 arg9 harg9 arg10 harg10 arg11 harg11 arg12 harg12 hc0 hc1 x0 x1 x2 x3 = k0_pay3 (k0_pay13 x2 x3) k0_pay9 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]

/-! ## A middle column block: the statistics are updated from what the point before left -/

/-- The similarity tile. -/
theorem simTile_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    out0_B_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay10 x0 x1 := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The agreement tile. -/
theorem maskTile_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    out0_B_5 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay12 x2 x3 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The running maximum. -/
theorem max_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay4 (k0_pay14 x0 x1 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The exponential sum, rescaled to the new maximum. -/
theorem expSum_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay1 (k0_pay15 x0 x1 xs0 xs0) (k0_pay16 x0 x1 xs0) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The masked logit sum. -/
theorem logitSum_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay2 (k0_pay11 x0 x1) (k0_pay13 x2 x3) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The positive count. -/
theorem count_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    sout0_B_3 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay3 (k0_pay13 x2 x3) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]

/-! ## The last column block: updated as before, and the row terms are stored from the updated statistics -/

/-- The similarity tile. -/
theorem simTile_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    out0_C_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay10 x0 x1 := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The agreement tile. -/
theorem maskTile_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    out0_C_5 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay12 x2 x3 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The running maximum. -/
theorem max_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay4 (k0_pay14 x0 x1 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The exponential sum. -/
theorem expSum_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay1 (k0_pay15 x0 x1 xs0 xs0) (k0_pay16 x0 x1 xs0) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The masked logit sum. -/
theorem logitSum_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay2 (k0_pay11 x0 x1) (k0_pay13 x2 x3) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The positive count. -/
theorem count_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    sout0_C_3 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay3 (k0_pay13 x2 x3) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]
/-- The row terms: the masked mean logit minus the maximum minus the logarithm of the exponential sum, of the UPDATED statistics. -/
theorem rowTerm_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x512 .f32) (harg6 : arg6.IsWhole) (arg7 : Memref sig .tc .vmem S512x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) (xs3 : Vec F S512x1 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 = k0_pay5 (k0_pay2 (k0_pay11 x0 x1) (k0_pay13 x2 x3) xs2) (k0_pay3 (k0_pay13 x2 x3) xs3) (k0_pay4 (k0_pay14 x0 x1 xs0)) (k0_pay1 (k0_pay15 x0 x1 xs0 xs0) (k0_pay16 x0 x1 xs0) xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg9.read_unread, harg10.read_unread, harg11.read_unread, harg12.read_unread, View.ld_unit_zero (S := S512x1024) hz, View.ld_unit_zero (S := S512x1) hz, View.ld_unit_zero (S := S1x512) hz, View.readCov_unit_zero (S := S512x1) _ hz]

end Cert.KernelIdeal.Pieces

end
-- ==== Proof.KPayload.lean ====
/-
  The body's arithmetic, read index by index over the extended reals.

  With `x0`, `x1` the two 512×1024 blocks and `x2`, `x3` the label column and row: the similarity tile at (p, q) is
  the inner product `Σ_k x0 (p, k) · x1 (q, k)` (the matrix product into a zero accumulator); the logit tile is
  that times the reciprocal temperature (the named constant); the agreement tile is the equality test of label p
  against label q widened to 32 bits, and its float is that integer. A row's maximum over the tile's columns is
  the fold of `max` from −∞; the sums over columns are plain finite sums. So the four updated statistics at row
  `p` are exactly one `step` of the streaming state at row `p` of the block, and the stored row term is
  `finish` of the state.
-/
import proofs.«107857_j43052752175450_1_alg».proof.Proof.Spec
import proofs.«107857_j43052752175450_1_alg».proof.Proof.Gen.KernelIdeal.Skeleton
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx
open Cert.KernelIdeal Cert.KernelIdeal.Gen Cert.Contrast

/-- The block's logit at row `p`, column `q`. -/
def blogit (x0 x1 : Vec Ideal S512x1024 .bf16) (p q : Fin 512) : EReal :=
  (∑ k : Fin 1024, x0 (ix2 p k) * x1 (ix2 q k)) * invT

/-- The block's label agreement at row `p`, column `q`, as an i32 zero or one. -/
def bmaskW (x2 : Vec Ideal S512x1 .i32) (x3 : Vec Ideal S1x512 .i32) (p q : Fin 512) : BitVec 32 :=
  (IntOp.cmpi .eq (x2 (ix2 p 0)) (x3 (ix2 0 q))).setWidth 32

/-- The same as a float. -/
def bmaskF (x2 : Vec Ideal S512x1 .i32) (x3 : Vec Ideal S1x512 .i32) (p q : Fin 512) : EReal :=
  (((bmaskW x2 x3 p q).toInt : ℝ) : EReal)

variable (x0 x1 : Vec Ideal S512x1024 .bf16) (x2 : Vec Ideal S512x1 .i32) (x3 : Vec Ideal S1x512 .i32)

/-- The kernel's named reciprocal temperature denotes `invT`. -/
theorem named_invT : Named.named (F := Ideal) κ "inv_temp" (φ := .f32) 0x41A00000#32 = invT := by
  unfold invT
  exact IdealRules.named_const.ideal_named_scalar _ _ _ _ rfl

/-- The product's left operand is read at the output's row … -/
theorem lhs_ax0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- … and at the contraction coordinate on its second axis; -/
theorem lhs_ax1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- the right operand is read at the output's column, as a row of the second block, … -/
theorem rhs_ax0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- … and at the contraction coordinate on its second axis. -/
theorem rhs_ax1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The similarity tile is the inner product of row `p` of the first block with row `q` of the second. -/
theorem sim_apply (i : S512x512.Idx) :
    k0_pay10 (F := Ideal) x0 x1 i = ∑ k : Fin 1024, x0 (ix2 (i 0) k) * x1 (ix2 (i 1) k) := by
  unfold k0_pay10
  simp only [shapeCast_self, matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx i ((contrEquiv1 dot_S512x1024_S512x1024_S512x512_1_1_0_0_n_n 1024 rfl rfl).symm k) = ix2 (i 0) k := funext fun a => Fin.ext (by
    match a with
    | ⟨0, _⟩ => exact lhs_ax0 _ _
    | ⟨1, _⟩ => exact (lhs_ax1 _ _).trans hk)
  have er : dot_S512x1024_S512x1024_S512x512_1_1_0_0_n_n.rhsIdx i ((contrEquiv1 dot_S512x1024_S512x1024_S512x512_1_1_0_0_n_n 1024 rfl rfl).symm k) = ix2 (i 1) k := funext fun a => Fin.ext (by
    match a with
    | ⟨0, _⟩ => exact rhs_ax0 _ _
    | ⟨1, _⟩ => exact (rhs_ax1 _ _).trans hk)
  rw [el, er]
  rfl

/-- The logit tile. -/
theorem logit_apply (i : S512x512.Idx) : k0_pay11 (F := Ideal) x0 x1 i = blogit x0 x1 (i 0) (i 1) := by
  unfold k0_pay11 blogit
  rw [mulf_apply, broadcast_apply, sim_apply, named_invT]

/-! ## Two layout readings: a column and a row spread over the tile -/

/-- A `[512, 1]` column spread over `[512, 512]` reads, at `(p, q)`, the column at `p`. -/
theorem bcastCol_apply {α : Type} (w : S512x1.Idx → α) (i : S512x512.Idx) :
    broadcastTo S512x512 w broadcasts_S512x1_S512x512 i = w (ix2 (i 0) 0) := by
  refine broadcastTo_apply w _ i (ix2 (i 0) 0) fun a => ?_
  match a with
  | ⟨0, _⟩ => rfl
  | ⟨1, _⟩ => rfl

/-- A `[1, 512]` row spread over `[512, 512]` reads, at `(p, q)`, the row at `q`. -/
theorem bcastRow_apply {α : Type} (w : S1x512.Idx → α) (i : S512x512.Idx) :
    broadcastTo S512x512 w broadcasts_S1x512_S512x512 i = w (ix2 0 (i 1)) := by
  refine broadcastTo_apply w _ i (ix2 0 (i 1)) fun a => ?_
  match a with
  | ⟨0, _⟩ => rfl
  | ⟨1, _⟩ => rfl

/-- The agreement tile. -/
theorem maskW_apply (i : S512x512.Idx) : k0_pay12 (F := Ideal) x2 x3 i = bmaskW x2 x3 (i 0) (i 1) := by
  unfold k0_pay12 bmaskW
  simp only [shapeCast_self]
  rw [extui_apply]
  show (IntOp.cmpi .eq (broadcastTo S512x512 x2 broadcasts_S512x1_S512x512 i)
    (broadcastTo S512x512 x3 broadcasts_S1x512_S512x512 i)).setWidth 32 = _
  rw [bcastCol_apply, bcastRow_apply]

/-- Its float. -/
theorem maskF_apply (i : S512x512.Idx) : k0_pay13 (F := Ideal) x2 x3 i = bmaskF x2 x3 (i 0) (i 1) := by
  unfold k0_pay13 bmaskF
  rw [sitofp_apply, maskW_apply]
  rfl

/-- The word `0xFF800000` denotes −∞. -/
theorem negInf_word : Ideal.ofBits .f32 0xFF800000#32 = (⊥ : EReal) := by
  simp [Ideal.ofBits, Ideal.ieee]

/-- The reset values: −∞ for the maximum, zero for the three sums. -/
theorem reset_max (y : S512x1.Idx) : k0_pay6 (F := Ideal) y = (⊥ : EReal) := by
  unfold k0_pay6
  simp only [shapeCast_self]
  exact negInf_word
theorem reset_expSum (y : S512x1.Idx) : k0_pay7 (F := Ideal) y = (0 : EReal) := by
  unfold k0_pay7
  simp only [shapeCast_self]
  exact Ideal.ofBits_zero_f32
theorem reset_logitSum (y : S512x1.Idx) : k0_pay8 (F := Ideal) y = (0 : EReal) := by
  unfold k0_pay8
  simp only [shapeCast_self]
  exact Ideal.ofBits_zero_f32
theorem reset_count (y : S512x1.Idx) : k0_pay9 (F := Ideal) y = (0 : EReal) := by
  unfold k0_pay9
  simp only [shapeCast_self]
  exact Ideal.ofBits_zero_f32

/-- The stored row term is `finish` of the statistics it is computed from. -/
theorem rowTerm_apply (s n mx l : Vec Ideal S512x1 .f32) (y : S512x1.Idx) :
    k0_pay5 (F := Ideal) s n mx l y = finish (mx y, l y, s y, n y) := by
  unfold k0_pay5 finish
  rfl

/-! ## Rows of the tile: the column index, and a row's sum and maximum kept as a column -/

/-- A `[512, 1]` index is its row with column `0`. -/
theorem col_eq (y : S512x1.Idx) : ix2 (y 0) (0 : Fin 1) = y := by
  funext a
  match a with
  | ⟨0, _⟩ => rfl
  | ⟨1, _⟩ => exact Fin.ext (by have := idx2_lt1 y; show 0 = (y 1).val; omega)

/-- A `[512]` vector kept as a `[512, 1]` column reads, at `(p, 0)`, the vector at `p`. -/
theorem castCol_apply {α : Type} (w : S512.Idx → α) (y : S512x1.Idx) :
    shapeCast S512x1 w shapeCasts_S512_S512x1 y = w (ix1 (y 0)) :=
  shapeCast_apply w shapeCasts_S512_S512x1 y (ix1 (y 0)) (by
    have h1 := idx2_lt1 y
    rw [Shape.rowMajor_val_one, Shape.rowMajor_val_two]
    show (y 0).val = (y 0).val * 1 + (y 1).val
    omega)

/-- The tile index over row `p` with column `k` put back on the reduced axis is `(p, k)`. -/
theorem lift_eq (p : Fin 512) (k : Fin 512) : reduces_S512x512_S512.lift (ix1 p) k = ix2 p k := by
  funext a
  refine Fin.ext ?_
  match a with
  | ⟨0, _⟩ => rfl
  | ⟨1, _⟩ => rfl

/-- A row sum of the tile kept as a column: at row `p` the sum of the tile's row `p`. -/
theorem rowSum_apply (src : FVec Ideal S512x512 .f32) (y : S512x1.Idx) :
    shapeCast S512x1 (multiReduction .add [1] S512 src 0x00000000#32 reduces_S512x512_S512 (.inl rfl) rfl)
      shapeCasts_S512_S512x1 y = ∑ k : Fin 512, (src (ix2 (y 0) k) : EReal) := by
  refine (castCol_apply _ y).trans ?_
  refine (Ideal.multiReduction_add_single src 0x00000000#32 reduces_S512x512_S512 (.inl rfl) rfl (ix1 (y 0))).trans ?_
  show ∑ k : Fin 512, src (reduces_S512x512_S512.lift (ix1 (y 0)) k) = _
  exact Finset.sum_congr rfl fun k _ => congrArg src (lift_eq (y 0) k)

/-- A row maximum of the tile kept as a column: at row `p` the fold of `max` from −∞ over the tile's row `p`. -/
theorem rowMax_apply (src : FVec Ideal S512x512 .f32) (y : S512x1.Idx) :
    shapeCast S512x1 (multiReduction .maximumf [1] S512 src 0xFF800000#32 reduces_S512x512_S512 (.inl rfl) rfl)
      shapeCasts_S512_S512x1 y = Finset.univ.fold max (⊥ : EReal) fun k : Fin 512 => (src (ix2 (y 0) k) : EReal) := by
  refine (castCol_apply _ y).trans ?_
  refine (Ideal.multiReduction_maximumf_single src 0xFF800000#32 reduces_S512x512_S512 (.inl rfl) rfl (ix1 (y 0))).trans ?_
  show (Finset.univ : Finset (Fin 512)).fold max (Ideal.ofBits .f32 0xFF800000#32)
    (fun k => src (reduces_S512x512_S512.lift (ix1 (y 0)) k)) = _
  rw [negInf_word]
  have e : (fun k : Fin 512 => src (reduces_S512x512_S512.lift (ix1 (y 0)) k)) = fun k => src (ix2 (y 0) k) :=
    funext fun k => congrArg src (lift_eq (y 0) k)
  exact congrArg (fun f => Finset.fold max (⊥ : EReal) f Finset.univ) e

/-! ## The four updated statistics at a row -/

/-- The new running maximum at row `p`: the larger of the old one and the row's largest logit. -/
theorem newMax_apply (v : Vec Ideal S512x1 .f32) (y : S512x1.Idx) :
    k0_pay14 (F := Ideal) x0 x1 v y
      = max (v y) (Finset.univ.fold max (⊥ : EReal) fun q : Fin 512 => blogit x0 x1 (y 0) q) := by
  unfold k0_pay14
  rw [maximumf_apply, rowMax_apply]
  simp only [logit_apply]

/-- The rescaling factor at row `p`: the exponential of a statistic minus the new maximum. -/
theorem rescale_apply (v v' : Vec Ideal S512x1 .f32) (y : S512x1.Idx) :
    k0_pay15 (F := Ideal) x0 x1 v v' y = Ideal.exp (v' y - k0_pay14 (F := Ideal) x0 x1 v y) := by
  unfold k0_pay15
  rfl

/-- The tile of exponentials: each logit minus its row's new maximum, exponentiated. -/
theorem expTile_apply (v : Vec Ideal S512x1 .f32) (y : S512x1.Idx) (k : Fin 512) :
    k0_pay16 (F := Ideal) x0 x1 v (ix2 (y 0) k)
      = Ideal.exp (blogit x0 x1 (y 0) k - k0_pay14 (F := Ideal) x0 x1 v y) := by
  unfold k0_pay16
  show Ideal.exp (k0_pay11 (F := Ideal) x0 x1 (ix2 (y 0) k)
    - broadcastTo S512x512 (k0_pay14 (F := Ideal) x0 x1 v) broadcasts_S512x1_S512x512 (ix2 (y 0) k)) = _
  rw [bcastCol_apply, logit_apply]
  exact congrArg (fun t => Ideal.exp (blogit x0 x1 (y 0) k - k0_pay14 (F := Ideal) x0 x1 v t)) (col_eq y)

/-- The updated sum of exponentials at row `p`. -/
theorem expSum_apply (v u : Vec Ideal S512x1 .f32) (y : S512x1.Idx) :
    k0_pay1 (F := Ideal) (k0_pay15 x0 x1 v v) (k0_pay16 x0 x1 v) u y
      = Ideal.exp (v y - k0_pay14 (F := Ideal) x0 x1 v y) * u y
        + ∑ j : Fin 512, Ideal.exp (blogit x0 x1 (y 0) j - k0_pay14 (F := Ideal) x0 x1 v y) := by
  unfold k0_pay1
  simp only [shapeCast_self]
  rw [addf_apply, mulf_apply, rowSum_apply, rescale_apply]
  simp only [expTile_apply]

/-- The updated masked logit sum at row `p`. -/
theorem logitSum_apply (s : Vec Ideal S512x1 .f32) (y : S512x1.Idx) :
    k0_pay2 (F := Ideal) (k0_pay11 x0 x1) (k0_pay13 x2 x3) s y
      = s y + ∑ j : Fin 512, bmaskF x2 x3 (y 0) j * blogit x0 x1 (y 0) j := by
  unfold k0_pay2
  simp only [shapeCast_self]
  rw [addf_apply, rowSum_apply]
  simp only [mulf_apply, logit_apply, maskF_apply]

/-- The updated positive count at row `p`. -/
theorem count_apply (n : Vec Ideal S512x1 .f32) (y : S512x1.Idx) :
    k0_pay3 (F := Ideal) (k0_pay13 x2 x3) n y = n y + ∑ j : Fin 512, bmaskF x2 x3 (y 0) j := by
  unfold k0_pay3
  simp only [shapeCast_self]
  rw [addf_apply, rowSum_apply]
  simp only [maskF_apply]

/-- The four updated statistics at row `y 0`, from statistics `(v, u, s, n)`, are one step of the streaming state
    over the block's row of logits and mask. -/
theorem stats_step (v u s n : Vec Ideal S512x1 .f32) (y : S512x1.Idx) :
    ((k0_pay4 (F := Ideal) (k0_pay14 x0 x1 v) y,
      k0_pay1 (F := Ideal) (k0_pay15 x0 x1 v v) (k0_pay16 x0 x1 v) u y,
      k0_pay2 (F := Ideal) (k0_pay11 x0 x1) (k0_pay13 x2 x3) s y,
      k0_pay3 (F := Ideal) (k0_pay13 x2 x3) n y) : Acc)
    = step (fun q => blogit x0 x1 (y 0) q) (fun q => bmaskF x2 x3 (y 0) q) (v y, u y, s y, n y) := by
  have h4 : k0_pay4 (F := Ideal) (k0_pay14 x0 x1 v) y = k0_pay14 (F := Ideal) x0 x1 v y := by
    unfold k0_pay4
    simp only [shapeCast_self]
  rw [h4, expSum_apply, logitSum_apply, count_apply, newMax_apply]
  rfl

end Cert.KernelIdeal.Payload

end
-- ==== Proof.KBlocks.lean ====
/-
  The kernel's region: its operand arrays and what a grid point sees of them.

  The region walks an 8 × 8 grid of points; point `t` has row block `t / 8` and column block `t % 8`. At a point
  the body sees rows `512·(t/8) + p` of the first operand, rows `512·(t%8) + q` of the second, and the matching
  stretch of the label column and of the label row. So a point's block logits and block mask are the arrays'
  logits and mask at those rows and columns.
-/
import proofs.«107857_j43052752175450_1_alg».proof.Proof.Spec
import proofs.«107857_j43052752175450_1_alg».proof.Proof.KPieces
import proofs.«107857_j43052752175450_1_alg».proof.Proof.KPayload
import proofs.«107857_j43052752175450_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.Contrast Cert.KernelIdeal.Payload

variable (m : (ℓ : Loc nD τ sig) → Buf (Elt Ideal) ℓ) (ρ : Dev nD → PrngReg)

/-! ## The operand arrays and a point's blocks -/

/-- The four operand arrays as the region finds them. -/
abbrev eA (c : Dev nD) : SND.Idx → EReal := V m c main_v10
abbrev eB (c : Dev nD) : SND.Idx → EReal := V m c main_v11
abbrev eL (c : Dev nD) : S4096x1.Idx → BitVec 32 := V m c main_v12
abbrev eR (c : Dev nD) : S1x4096.Idx → BitVec 32 := V m c main_v13

/-- Whether the label column at `r` agrees with the label row at `q`, as an i32 zero or one, and as a float. -/
def agreeW (c : Dev nD) (r q : Fin 4096) : BitVec 32 := (IntOp.cmpi .eq (eL m c (ix2 r 0)) (eR m c (ix2 0 q))).setWidth 32
def agreeF (c : Dev nD) (r q : Fin 4096) : EReal := (((agreeW m c r q).toInt : ℝ) : EReal)

/-- Row `r`'s logits and mask as functions of the column. -/
def rowLogits (c : Dev nD) (r : Fin 4096) : Fin 4096 → EReal := fun q => logit (eA m c) (eB m c) r q
def rowAgree (c : Dev nD) (r : Fin 4096) : Fin 4096 → EReal := fun q => agreeF m c r q

/-- The three arrays the region is to leave: all inner products, all label agreements, all streaming row terms. -/
abbrev simArr (c : Dev nD) : S4096x4096.Idx → EReal := fun i => dots (eA m c) (eB m c) (i 0) (i 1)
abbrev agreeArr (c : Dev nD) : S4096x4096.Idx → BitVec 32 := fun i => agreeW m c (i 0) (i 1)
abbrev rowArr (c : Dev nD) : S4096x1.Idx → EReal := fun i => rowStream (rowLogits m c (i 0)) (rowAgree m c (i 0))

/-- The blocks a point loads. -/
abbrev bA (c : Dev nD) (t : Fin cfg0.N) : Vec Ideal S512x1024 .bf16 := iblk m c 0 t
abbrev bB (c : Dev nD) (t : Fin cfg0.N) : Vec Ideal S512x1024 .bf16 := iblk m c 1 t
abbrev bL (c : Dev nD) (t : Fin cfg0.N) : Vec Ideal S512x1 .i32 := iblk m c 2 t
abbrev bR (c : Dev nD) (t : Fin cfg0.N) : Vec Ideal S1x512 .i32 := iblk m c 3 t

theorem hN : cfg0.N = 64 := N_0

/-- A point's row block and column block. -/
def rbk (t : Fin cfg0.N) : Fin 8 := ⟨t.val / 8, by have h := t.isLt; have h64 : cfg0.N = 64 := hN; omega⟩
def cbk (t : Fin cfg0.N) : Fin 8 := ⟨t.val % 8, Nat.mod_lt _ (by decide)⟩

/-- The printed index maps over the grid: each window's block index at point `t` in terms of `t / 8` and `t % 8`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = t.val % 8
    ∧ win0_5.index t (0 : Fin 2) = t.val / 8 ∧ win0_5.index t (1 : Fin 2) = t.val % 8
    ∧ win0_6.index t (0 : Fin 2) = t.val / 8 ∧ win0_6.index t (1 : Fin 2) = 0 :=
  (by decide +kernel : ∀ t : Fin grid0.N, _)

/-- The first operand's block holds rows `512·(t/8) + p`. -/
theorem bA_apply (c : Dev nD) (t : Fin cfg0.N) (p : Fin 512) (k : Fin 1024) :
    bA m c t (ix2 p k) = eA m c (ix2 (row (rbk t) p) k) := by
  unfold bA iblk
  rw [View.read_apply]
  show V m c main_v10 _ = V m c main_v10 _
  congr 1
  funext a
  apply Fin.ext
  match a with
  | ⟨0, _⟩ => show win0_0.index t 0 * 512 + 1 * p.val = 512 * (t.val / 8) + p.val; rw [(idx_facts t).1]; omega
  | ⟨1, _⟩ => show win0_0.index t 1 * 1024 + 1 * k.val = k.val; rw [(idx_facts t).2.1]; omega

/-- The second operand's block holds rows `512·(t%8) + q`. -/
theorem bB_apply (c : Dev nD) (t : Fin cfg0.N) (q : Fin 512) (k : Fin 1024) :
    bB m c t (ix2 q k) = eB m c (ix2 (col (cbk t) q) k) := by
  unfold bB iblk
  rw [View.read_apply]
  show V m c main_v11 _ = V m c main_v11 _
  congr 1
  funext a
  apply Fin.ext
  match a with
  | ⟨0, _⟩ => show win0_1.index t 0 * 512 + 1 * q.val = 512 * (t.val % 8) + q.val; rw [(idx_facts t).2.2.1]; omega
  | ⟨1, _⟩ => show win0_1.index t 1 * 1024 + 1 * k.val = k.val; rw [(idx_facts t).2.2.2.1]; omega

/-- The label column's block holds labels `512·(t/8) + p`. -/
theorem bL_apply (c : Dev nD) (t : Fin cfg0.N) (p : Fin 512) :
    bL m c t (ix2 p 0) = eL m c (ix2 (row (rbk t) p) 0) := by
  unfold bL iblk
  rw [View.read_apply]
  show V m c main_v12 _ = V m c main_v12 _
  congr 1
  funext a
  apply Fin.ext
  match a with
  | ⟨0, _⟩ => show win0_2.index t 0 * 512 + 1 * p.val = 512 * (t.val / 8) + p.val; rw [(idx_facts t).2.2.2.2.1]; omega
  | ⟨1, _⟩ => show win0_2.index t 1 * 1 + 1 * 0 = 0; rw [(idx_facts t).2.2.2.2.2.1]

/-- The label row's block holds labels `512·(t%8) + q`. -/
theorem bR_apply (c : Dev nD) (t : Fin cfg0.N) (q : Fin 512) :
    bR m c t (ix2 0 q) = eR m c (ix2 0 (col (cbk t) q)) := by
  unfold bR iblk
  rw [View.read_apply]
  show V m c main_v13 _ = V m c main_v13 _
  congr 1
  funext a
  apply Fin.ext
  match a with
  | ⟨0, _⟩ => show win0_3.index t 0 * 1 + 1 * 0 = 0; rw [(idx_facts t).2.2.2.2.2.2.1]
  | ⟨1, _⟩ => show win0_3.index t 1 * 512 + 1 * q.val = 512 * (t.val % 8) + q.val; rw [(idx_facts t).2.2.2.2.2.2.2.1]; omega

/-- A point's block logits are the array's logits at the point's rows and columns. -/
theorem blogit_eq (c : Dev nD) (t : Fin cfg0.N) (p q : Fin 512) :
    blogit (bA m c t) (bB m c t) p q = rowLogits m c (row (rbk t) p) (col (cbk t) q) := by
  show (∑ k : Fin 1024, bA m c t (ix2 p k) * bB m c t (ix2 q k)) * invT
    = (∑ k : Fin 1024, eA m c (ix2 (row (rbk t) p) k) * eB m c (ix2 (col (cbk t) q) k)) * invT
  refine congrArg (· * invT) (Finset.sum_congr rfl fun k _ => ?_)
  rw [bA_apply, bB_apply]

/-- A point's block mask is the array's mask at the point's rows and columns. -/
theorem bmaskW_eq (c : Dev nD) (t : Fin cfg0.N) (p q : Fin 512) :
    bmaskW (bL m c t) (bR m c t) p q = agreeW m c (row (rbk t) p) (col (cbk t) q) := by
  show (IntOp.cmpi .eq (bL m c t (ix2 p 0)) (bR m c t (ix2 0 q))).setWidth 32
    = (IntOp.cmpi .eq (eL m c (ix2 (row (rbk t) p) 0)) (eR m c (ix2 0 (col (cbk t) q)))).setWidth 32
  rw [bL_apply, bR_apply]

theorem bmaskF_eq (c : Dev nD) (t : Fin cfg0.N) (p q : Fin 512) :
    bmaskF (bL m c t) (bR m c t) p q = rowAgree m c (row (rbk t) p) (col (cbk t) q) := by
  show (((bmaskW (bL m c t) (bR m c t) p q).toInt : ℝ) : EReal) = (((agreeW m c (row (rbk t) p) (col (cbk t) q)).toInt : ℝ) : EReal)
  rw [bmaskW_eq]

end Cert.KernelIdeal.Region

end
-- ==== Proof.KHead.lean ====
/-
  What the kernel's region finds in its four operand arrays.

  Before the region the program scales the rows of both float inputs to unit length — the row's sum of squares, its
  square root, the larger of that and ε, the quotient — and narrows the result to bf16, which over the extended reals
  changes nothing; and it reshapes the label vector into a column and into a row, which only re-indexes it: entry
  (r, 0) of the column and entry (0, q) of the row are labels r and q.
-/
import proofs.«107857_j43052752175450_1_alg».proof.Proof.Spec
import proofs.«107857_j43052752175450_1_alg».proof.Proof.Gen.KernelIdeal.Frame
import proofs.«107857_j43052752175450_1_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Head

open Idealize.ShloMosaic Idealize.ShloMosaic.TcCoe Idealize.ShloMosaic.ValueIdx Idealize.SL.Sem
open Cert.KernelIdeal Cert.KernelIdeal.Gen Cert.Contrast

variable (m : (ℓ : Loc nD τ sig) → Buf (Elt Ideal) ℓ)

/-- The first float input, as an array of extended reals. -/
abbrev inA (c : Dev nD) : SND.Idx → EReal := m ((c : Thread nD τ).loc main_arg0)
/-- The second float input. -/
abbrev inB (c : Dev nD) : SND.Idx → EReal := m ((c : Thread nD τ).loc main_arg1)
/-- The labels. -/
abbrev labels (c : Dev nD) : Fin 4096 → BitVec 32 := fun r => m ((c : Thread nD τ).loc main_arg2) (ix1 r)

/-- Each entry divided by the larger of its row's Euclidean norm and ε: the chain of array operations — the squares,
    their sum along the row from zero, the sum as a column, its square root, the larger of it and ε, that column
    spread along the rows, the quotient — read at one index. -/
theorem norm_apply (x : SND.Idx → EReal) (i : SND.Idx) :
    Cert.ReferenceIdeal.Read.val_main_v4 (F := Ideal) x i = unitRows x i := by
  rw [Cert.ReferenceIdeal.Read.val_main_v4_apply, Cert.ReferenceIdeal.Read.val_main_v3_apply,
    Cert.ReferenceIdeal.Read.val_main_v2_apply, Cert.ReferenceIdeal.Read.val_main_v0_apply,
    Cert.ReferenceIdeal.Read.val_main_call0_v2_apply, Cert.ReferenceIdeal.Read.val_main_call0_v1_apply,
    Cert.ReferenceIdeal.Read.val_main_v1_apply, Cert.ReferenceIdeal.Read.val_main_cst_apply,
    Cert.ReferenceIdeal.Read.val_main_call0_cst_apply]
  simp only [Cert.ReferenceIdeal.Read.val_main_call0_v0_apply]
  unfold unitRows
  -- the index the sum reads at: row `i 0`, column `k`
  have hidx : ∀ k : Fin 1024, Cert.ReferenceIdeal.Read.idx_main_call0_v1
      (Cert.ReferenceIdeal.Read.idx_main_call0_v2 (Cert.ReferenceIdeal.Read.idx_main_v3 i)) k = ix2 (i 0) k :=
    fun k => funext fun a => Fin.ext (by match a with | ⟨0, _⟩ => rfl | ⟨1, _⟩ => rfl)
  simp only [hidx]
  -- the sum starts from the f32 word zero, which is the real number zero
  show Ideal.div (x i) (max (Ideal.sqrt (Ideal.ofBits .f32 0x00000000#32
      + ∑ d : Fin 1024, x (ix2 (i 0) d) * x (ix2 (i 0) d))) (Ideal.ofBits .f32 0x322BCC77#32)) = _
  rw [Ideal.ofBits_zero_f32, zero_add]

/-- The region's first operand is the first input with unit-length rows. -/
theorem entry_a (c : Dev nD) : (V m c main_v10 : SND.Idx → EReal) = unitRows (inA m c) := by
  -- the array the operations before the region leave: the scaled rows, narrowed to bf16
  have e : (V m c main_v10 : SND.Idx → EReal)
      = truncf (F := Ideal) .bf16 (Cert.ReferenceIdeal.Read.val_main_v4 (F := Ideal) (inA m c)) bitsLt_bf16_f32 := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  funext i
  -- narrowing changes nothing over the extended reals
  rw [truncf_apply]
  exact norm_apply (inA m c) i

/-- The region's second operand is the second input with unit-length rows. -/
theorem entry_b (c : Dev nD) : (V m c main_v11 : SND.Idx → EReal) = unitRows (inB m c) := by
  -- the same operations on the second input
  have e : (V m c main_v11 : SND.Idx → EReal)
      = truncf (F := Ideal) .bf16 (Cert.ReferenceIdeal.Read.val_main_v4 (F := Ideal) (inB m c)) bitsLt_bf16_f32 := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  funext i
  rw [truncf_apply]
  exact norm_apply (inB m c) i

/-- The label column holds label `r` at (r, 0). -/
theorem entry_labCol (c : Dev nD) (r : Fin 4096) : V m c main_v12 (ix2 r 0) = labels m c r := by
  have e : (V m c main_v12 : S4096x1.Idx → BitVec 32)
      = shapeCast S4096x1 (m ((c : Thread nD τ).loc main_arg2) : S4096.Idx → BitVec 32) shapeCasts_S4096_S4096x1 := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  -- entry (r, 0) of a [4096, 1] array and entry r of the vector sit at the same row-major position r·1 + 0 = r
  exact shapeCast_apply _ _ _ (ix1 r) (by
    rw [Shape.rowMajor_val_two, Shape.rowMajor_val_one]
    show r.val = r.val * 1 + 0
    omega)

/-- The label row holds label `q` at (0, q). -/
theorem entry_labRow (c : Dev nD) (q : Fin 4096) : V m c main_v13 (ix2 0 q) = labels m c q := by
  have e : (V m c main_v13 : S1x4096.Idx → BitVec 32)
      = shapeCast S1x4096 (m ((c : Thread nD τ).loc main_arg2) : S4096.Idx → BitVec 32) shapeCasts_S4096_S1x4096 := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  -- entry (0, q) of a [1, 4096] array and entry q of the vector sit at the same row-major position 0·4096 + q = q
  exact shapeCast_apply _ _ _ (ix1 q) (by
    rw [Shape.rowMajor_val_two, Shape.rowMajor_val_one]
    show q.val = 0 * 4096 + q.val
    omega)

end Cert.KernelIdeal.Head

end
-- ==== Proof.KBridge.lean ====
/-
  The kernel's three arrays in terms of the inputs.

  The region's operands are the inputs with unit-length rows and the labels as a column and as a row, so: the
  array of inner products is the reference's similarity result (the logit times the temperature: on reals,
  multiplying by `1 / T` and then by `T` changes nothing); the array of label agreements is the reference's label
  result; and each streaming row term is the direct row term (finite logits, a zero-one mask with the diagonal set).
-/
import proofs.«107857_j43052752175450_1_alg».proof.Proof.Spec
import proofs.«107857_j43052752175450_1_alg».proof.Proof.Consts
import proofs.«107857_j43052752175450_1_alg».proof.Proof.Finite
import proofs.«107857_j43052752175450_1_alg».proof.Proof.Softmax
import proofs.«107857_j43052752175450_1_alg».proof.Proof.KBlocks
import proofs.«107857_j43052752175450_1_alg».proof.Proof.KHead

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen Cert.Contrast Cert.KernelIdeal.Head

variable (m : (ℓ : Loc nD τ sig) → Buf (Elt Ideal) ℓ)

/-- The label agreement of the region's column and row operands is the label mask. -/
theorem agreeW_eq (c : Dev nD) (r q : Fin 4096) : agreeW m c r q = maskW (labels m c) r q := by
  show (IntOp.cmpi .eq (V m c main_v12 (ix2 r 0)) (V m c main_v13 (ix2 0 q))).setWidth 32
    = (IntOp.cmpi .eq (labels m c r) (labels m c q)).setWidth 32
  rw [entry_labCol, entry_labRow]

/-- The array of label agreements is the reference's label result. -/
theorem agreeArr_eq (c : Dev nD) : agreeArr m c = maskOut (labels m c) := by
  funext i
  show agreeW m c (i 0) (i 1) = maskW (labels m c) (i 0) (i 1)
  exact agreeW_eq m c (i 0) (i 1)

/-- On finite inputs the array of inner products is the logit times the temperature. -/
theorem simArr_eq (c : Dev nD) (ha : ∀ i, ∃ y : ℝ, inA m c i = (y : EReal)) (hb : ∀ i, ∃ y : ℝ, inB m c i = (y : EReal)) :
    simArr m c = fun i => logit (unitRows (inA m c)) (unitRows (inB m c)) (i 0) (i 1) * ((tempR : ℝ) : EReal) := by
  have hA : eA m c = unitRows (inA m c) := entry_a m c
  have hB : eB m c = unitRows (inB m c) := entry_b m c
  funext i
  show dots (eA m c) (eB m c) (i 0) (i 1)
    = dots (unitRows (inA m c)) (unitRows (inB m c)) (i 0) (i 1) * invT * ((tempR : ℝ) : EReal)
  rw [hA, hB]
  -- an inner product of real rows is real: multiplying by 1 / T and then by T gives it back
  obtain ⟨y, hy⟩ := dots_real _ _ (unitRows_real _ ha) (unitRows_real _ hb) (i 0) (i 1)
  rw [hy, temp_cancel]

/-- On finite inputs each streaming row term is the direct row term. -/
theorem rowArr_eq (c : Dev nD) (ha : ∀ i, ∃ y : ℝ, inA m c i = (y : EReal)) (hb : ∀ i, ∃ y : ℝ, inB m c i = (y : EReal))
    (r : Fin 4096) :
    rowArr m c (ix2 r 0) = rowTermD (unitRows (inA m c)) (unitRows (inB m c)) (labels m c) r := by
  have hA : eA m c = unitRows (inA m c) := entry_a m c
  have hB : eB m c = unitRows (inB m c) := entry_b m c
  have hx : rowLogits m c r = fun q => logit (unitRows (inA m c)) (unitRows (inB m c)) r q := by
    unfold rowLogits
    rw [hA, hB]
  have hw : rowAgree m c r = fun q => maskF (labels m c) r q := by
    funext q
    show (((agreeW m c r q).toInt : ℝ) : EReal) = (((maskW (labels m c) r q).toInt : ℝ) : EReal)
    rw [agreeW_eq]
  show rowStream (rowLogits m c r) (rowAgree m c r) = _
  rw [hx, hw]
  -- finite logits, a zero-one mask, and the row its own positive: the streaming term is the direct term
  exact rowStream_eq_rowDirect _ _
    (fun q => logit_real _ _ (unitRows_real _ ha) (unitRows_real _ hb) r q)
    (fun q => maskF_zero_or_one _ r q) ⟨r, maskF_self _ r⟩

end Cert.KernelIdeal.Region

end
-- ==== Proof.KTiles.lean ====
/-
  The similarity and label-agreement tiles.

  At every point the body stores the product of its two blocks and the comparison of its label column with its
  label row. Read through the point's rows and columns these are the tile at (t / 8, t % 8) of the array of all
  inner products and of the array of all label agreements, so what the point writes back is that block of those
  arrays.
-/
import proofs.«107857_j43052752175450_1_alg».proof.Proof.Spec
import proofs.«107857_j43052752175450_1_alg».proof.Proof.KPieces
import proofs.«107857_j43052752175450_1_alg».proof.Proof.KPayload
import proofs.«107857_j43052752175450_1_alg».proof.Proof.KBlocks
import proofs.«107857_j43052752175450_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.Contrast Cert.KernelIdeal.Payload

variable (m : (ℓ : Loc nD τ sig) → Buf (Elt Ideal) ℓ)

/-- Whichever of the three cases a point is in (first, middle or last column block of its row block), the two tiles
    it leaves are the same functions of its loaded blocks: the product of the two operand blocks, and the comparison of
    the label column with the label row. -/
theorem tiles_pay (c : Dev nD) (t : Fin cfg0.N) :
    (outsAt0 m c t.val t.isLt).1 = k0_pay10 (F := Ideal) (bA m c t) (bB m c t)
    ∧ (outsAt0 m c t.val t.isLt).2.1 = k0_pay12 (F := Ideal) (bL m c t) (bR m c t) := by
  by_cases h0 : t.val % 8 = 0
  · have h1 : ¬t.val % 8 = 7 := by omega
    rw [outsAt0_A m c t h0 h1]
    dsimp only
    exact ⟨Pieces.simTile_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
      Pieces.maskTile_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)⟩
  · by_cases h1 : t.val % 8 = 7
    · rw [outsAt0_C m c t h0 h1]
      dsimp only
      exact ⟨Pieces.simTile_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        Pieces.maskTile_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2⟩
    · rw [outsAt0_B m c t h0 h1]
      dsimp only
      exact ⟨Pieces.simTile_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
        Pieces.maskTile_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2⟩

/-- The similarity tile a point leaves is the array of inner products at the point's rows and columns. -/
theorem simTile_eq (c : Dev nD) (t : Fin cfg0.N) :
    (outsAt0 m c t.val t.isLt).1 = fun i => dots (eA m c) (eB m c) (row (rbk t) (i 0)) (col (cbk t) (i 1)) := by
  refine (tiles_pay m c t).1.trans ?_
  funext i
  refine (sim_apply (bA m c t) (bB m c t) i).trans ?_
  show _ = ∑ k : Fin 1024, eA m c (ix2 (row (rbk t) (i 0)) k) * eB m c (ix2 (col (cbk t) (i 1)) k)
  exact Finset.sum_congr rfl fun k _ =>
    congrArg₂ (· * ·) (bA_apply m c t (i 0) k) (bB_apply m c t (i 1) k)

/-- The agreement tile a point leaves is the array of label agreements at the point's rows and columns. -/
theorem maskTile_eq (c : Dev nD) (t : Fin cfg0.N) :
    (outsAt0 m c t.val t.isLt).2.1 = fun i => agreeW m c (row (rbk t) (i 0)) (col (cbk t) (i 1)) := by
  refine (tiles_pay m c t).2.trans ?_
  funext i
  exact (maskW_apply (bL m c t) (bR m c t) i).trans (bmaskW_eq m c t (i 0) (i 1))

/-- What point `t` writes back to the similarity array is block `t` of the array of all inner products. -/
theorem flushed_sim (c : Dev nD) (t : Fin cfg0.N) :
    (dats m 0 c).flushed 4 t = ((cfg0.win 4).blk t).view.read (Elt Ideal) (simArr m c) := by
  show (cfg0.win 4).cut (grid0.coords t) ((dats m 0 c).after 4 t) = _
  rw [after0_4, simTile_eq]
  funext j
  show dots (eA m c) (eB m c) (row (rbk t) (j 0)) (col (cbk t) (j 1))
    = dots (eA m c) (eB m c) ((((cfg0.win 4).blk t).view.emb j) 0) ((((cfg0.win 4).blk t).view.emb j) 1)
  have hr : row (rbk t) (j 0) = (((cfg0.win 4).blk t).view.emb j) 0 := Fin.ext (by
    show 512 * (t.val / 8) + (j 0).val = win0_4.index t 0 * 512 + 1 * (j 0).val
    rw [(idx_facts t).2.2.2.2.2.2.2.2.1]; omega)
  have hc : col (cbk t) (j 1) = (((cfg0.win 4).blk t).view.emb j) 1 := Fin.ext (by
    show 512 * (t.val % 8) + (j 1).val = win0_4.index t 1 * 512 + 1 * (j 1).val
    rw [(idx_facts t).2.2.2.2.2.2.2.2.2.1]; omega)
  rw [hr, hc]

/-- What point `t` writes back to the agreement array is block `t` of the array of all label agreements. -/
theorem flushed_mask (c : Dev nD) (t : Fin cfg0.N) :
    (dats m 0 c).flushed 5 t = ((cfg0.win 5).blk t).view.read (Elt Ideal) (agreeArr m c) := by
  show (cfg0.win 5).cut (grid0.coords t) ((dats m 0 c).after 5 t) = _
  rw [after0_5, maskTile_eq]
  funext j
  show agreeW m c (row (rbk t) (j 0)) (col (cbk t) (j 1))
    = agreeW m c ((((cfg0.win 5).blk t).view.emb j) 0) ((((cfg0.win 5).blk t).view.emb j) 1)
  have hr : row (rbk t) (j 0) = (((cfg0.win 5).blk t).view.emb j) 0 := Fin.ext (by
    show 512 * (t.val / 8) + (j 0).val = win0_5.index t 0 * 512 + 1 * (j 0).val
    rw [(idx_facts t).2.2.2.2.2.2.2.2.2.2.1]; omega)
  have hc : col (cbk t) (j 1) = (((cfg0.win 5).blk t).view.emb j) 1 := Fin.ext (by
    show 512 * (t.val % 8) + (j 1).val = win0_5.index t 1 * 512 + 1 * (j 1).val
    rw [(idx_facts t).2.2.2.2.2.2.2.2.2.2.2.1]; omega)
  rw [hr, hc]

end Cert.KernelIdeal.Region

end
-- ==== Proof.KStats.lean ====
/-
  The running statistics along a row block.

  After the point at row block `I` and column block `J`, the four statistics buffers hold, at row `p`, the
  streaming state of row `512·I + p` after its first `J + 1` column blocks. By induction on the point: the
  first point of a row block starts from the reset values (−∞ and zeros, the empty state), every later point from
  what the point before left; in both cases the body performs one step of the streaming state over the point's
  block of logits and mask, which are the row's logits and mask at columns `512·J + q`.
-/
import proofs.«107857_j43052752175450_1_alg».proof.Proof.Spec
import proofs.«107857_j43052752175450_1_alg».proof.Proof.KPieces
import proofs.«107857_j43052752175450_1_alg».proof.Proof.KPayload
import proofs.«107857_j43052752175450_1_alg».proof.Proof.KBlocks
import proofs.«107857_j43052752175450_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.Contrast Cert.KernelIdeal.Payload

variable (m : (ℓ : Loc nD τ sig) → Buf (Elt Ideal) ℓ)

/-- What the four statistics buffers hold at row `y` after point `n`. -/
def stats (c : Dev nD) (n : ℕ) (hn : n < cfg0.N) (y : S512x1.Idx) : Acc :=
  ((outsAt0 m c n hn).2.2.2.1 y, (outsAt0 m c n hn).2.2.2.2.1 y, (outsAt0 m c n hn).2.2.2.2.2.1 y,
    (outsAt0 m c n hn).2.2.2.2.2.2 y)

/-! ## One point: one step of the streaming state -/

set_option maxRecDepth 65536 in
theorem stats_A (c : Dev nD) (t : Fin cfg0.N) (h0 : t.val % 8 = 0) (h1 : ¬t.val % 8 = 7) (y : S512x1.Idx) :
    stats m c t.val t.isLt y
      = step (fun q => blogit (bA m c t) (bB m c t) (y 0) q) (fun q => bmaskF (bL m c t) (bR m c t) (y 0) q)
          acc0 := by
  have e0 := congrFun (Pieces.max_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) y
  have e1 := congrFun (Pieces.expSum_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) y
  have e2 := congrFun (Pieces.logitSum_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) y
  have e3 := congrFun (Pieces.count_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) y
  unfold stats
  rw [outsAt0_A m c t h0 h1]
  dsimp only
  rw [e0, e1, e2, e3]
  have hs := stats_step (bA m c t) (bB m c t) (bL m c t) (bR m c t) (k0_pay6 (F := Ideal)) (k0_pay7 (F := Ideal)) (k0_pay8 (F := Ideal)) (k0_pay9 (F := Ideal)) y
  rw [reset_max, reset_expSum, reset_logitSum, reset_count] at hs
  exact hs

set_option maxRecDepth 65536 in
theorem stats_B (c : Dev nD) (t : Fin cfg0.N) (h0 : ¬t.val % 8 = 0) (h1 : ¬t.val % 8 = 7) (y : S512x1.Idx) :
    stats m c t.val t.isLt y
      = step (fun q => blogit (bA m c t) (bB m c t) (y 0) q) (fun q => bmaskF (bL m c t) (bR m c t) (y 0) q)
          (stats m c (t.val - 1) (Nat.lt_of_le_of_lt (Nat.sub_le _ _) t.isLt) y) := by
  have e0 := congrFun (Pieces.max_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) y
  have e1 := congrFun (Pieces.expSum_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) y
  have e2 := congrFun (Pieces.logitSum_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) y
  have e3 := congrFun (Pieces.count_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) y
  unfold stats
  rw [outsAt0_B m c t h0 h1]
  dsimp only
  rw [e0, e1, e2, e3]
  exact stats_step (bA m c t) (bB m c t) (bL m c t) (bR m c t) _ _ _ _ y

set_option maxRecDepth 65536 in
theorem stats_C (c : Dev nD) (t : Fin cfg0.N) (h0 : ¬t.val % 8 = 0) (h1 : t.val % 8 = 7) (y : S512x1.Idx) :
    stats m c t.val t.isLt y
      = step (fun q => blogit (bA m c t) (bB m c t) (y 0) q) (fun q => bmaskF (bL m c t) (bR m c t) (y 0) q)
          (stats m c (t.val - 1) (Nat.lt_of_le_of_lt (Nat.sub_le _ _) t.isLt) y) := by
  have e0 := congrFun (Pieces.max_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) y
  have e1 := congrFun (Pieces.expSum_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) y
  have e2 := congrFun (Pieces.logitSum_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) y
  have e3 := congrFun (Pieces.count_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) y
  unfold stats
  rw [outsAt0_C m c t h0 h1]
  dsimp only
  rw [e0, e1, e2, e3]
  exact stats_step (bA m c t) (bB m c t) (bL m c t) (bR m c t) _ _ _ _ y

/-! ## Along a row block -/

theorem accAfter_congr (x w : Fin 4096 → EReal) (k k' : ℕ) (e : k = k') (h : k ≤ 8) (h' : k' ≤ 8) :
    accAfter x w k h = accAfter x w k' h' := by subst e; rfl

theorem stats_congr (c : Dev nD) (n n' : ℕ) (e : n = n') (hn : n < cfg0.N) (hn' : n' < cfg0.N) (y : S512x1.Idx) :
    stats m c n hn y = stats m c n' hn' y := by subst e; rfl

/-- A point's block step is the row's step over column block `t % 8`. -/
theorem step_rows (c : Dev nD) (t : Fin cfg0.N) (y : S512x1.Idx) (a : Acc) :
    step (fun q => blogit (bA m c t) (bB m c t) (y 0) q) (fun q => bmaskF (bL m c t) (bR m c t) (y 0) q) a
      = step (fun q => rowLogits m c (row (rbk t) (y 0)) (col (cbk t) q)) (fun q => rowAgree m c (row (rbk t) (y 0)) (col (cbk t) q)) a := by
  have e1 : (fun q => blogit (bA m c t) (bB m c t) (y 0) q) = fun q => rowLogits m c (row (rbk t) (y 0)) (col (cbk t) q) :=
    funext fun q => blogit_eq m c t (y 0) q
  have e2 : (fun q => bmaskF (bL m c t) (bR m c t) (y 0) q) = fun q => rowAgree m c (row (rbk t) (y 0)) (col (cbk t) q) :=
    funext fun q => bmaskF_eq m c t (y 0) q
  rw [e1, e2]

/-- Row block `I`, column block `J`: the statistics are the streaming state after `J + 1` column blocks. -/
theorem stats_at (c : Dev nD) (I : Fin 8) : ∀ (J : ℕ) (hJ : J < 8) (hn : 8 * I.val + J < cfg0.N) (y : S512x1.Idx),
    stats m c (8 * I.val + J) hn y
      = accAfter (rowLogits m c (row I (y 0))) (rowAgree m c (row I (y 0))) (J + 1) (by omega)
  | 0, hJ, hn, y => by
    have h0 : (⟨8 * I.val + 0, hn⟩ : Fin cfg0.N).val % 8 = 0 := by show (8 * I.val + 0) % 8 = 0; omega
    have h1 : ¬(⟨8 * I.val + 0, hn⟩ : Fin cfg0.N).val % 8 = 7 := by show ¬(8 * I.val + 0) % 8 = 7; omega
    have hr : rbk ⟨8 * I.val + 0, hn⟩ = I := Fin.ext (by show (8 * I.val + 0) / 8 = I.val; omega)
    have hc : cbk ⟨8 * I.val + 0, hn⟩ = ⟨0, by omega⟩ := Fin.ext (by show (8 * I.val + 0) % 8 = 0; omega)
    rw [stats_A m c ⟨8 * I.val + 0, hn⟩ h0 h1 y, step_rows, hr, hc]
    rfl
  | J + 1, hJ, hn, y => by
    have hn' : 8 * I.val + J < cfg0.N := by omega
    have h0 : ¬(⟨8 * I.val + (J + 1), hn⟩ : Fin cfg0.N).val % 8 = 0 := by show ¬(8 * I.val + (J + 1)) % 8 = 0; omega
    have hr : rbk ⟨8 * I.val + (J + 1), hn⟩ = I := Fin.ext (by show (8 * I.val + (J + 1)) / 8 = I.val; omega)
    have hc : cbk ⟨8 * I.val + (J + 1), hn⟩ = ⟨J + 1, hJ⟩ := Fin.ext (by show (8 * I.val + (J + 1)) % 8 = J + 1; omega)
    have ih := stats_at c I J (by omega) hn' y
    have hp : stats m c ((⟨8 * I.val + (J + 1), hn⟩ : Fin cfg0.N).val - 1) (Nat.lt_of_le_of_lt (Nat.sub_le _ _) hn) y
        = stats m c (8 * I.val + J) hn' y := stats_congr m c _ _ (by show 8 * I.val + (J + 1) - 1 = 8 * I.val + J; omega) _ _ y
    by_cases h1 : (⟨8 * I.val + (J + 1), hn⟩ : Fin cfg0.N).val % 8 = 7
    · rw [stats_C m c ⟨8 * I.val + (J + 1), hn⟩ h0 h1 y, step_rows, hr, hc, hp, ih]
      rfl
    · rw [stats_B m c ⟨8 * I.val + (J + 1), hn⟩ h0 h1 y, step_rows, hr, hc, hp, ih]
      rfl

/-- The statistics after point `n` are the streaming state of the point's rows after `n % 8 + 1` column blocks. -/
theorem stats_eq (c : Dev nD) (n : ℕ) (hn : n < cfg0.N) (y : S512x1.Idx) :
    stats m c n hn y
      = accAfter (rowLogits m c (row (rbk ⟨n, hn⟩) (y 0))) (rowAgree m c (row (rbk ⟨n, hn⟩) (y 0))) (n % 8 + 1)
          (by have := Nat.mod_lt n (by decide : 0 < 8); omega) := by
  have h64 : cfg0.N = 64 := hN
  have e : n = 8 * (rbk ⟨n, hn⟩).val + n % 8 := by show n = 8 * (n / 8) + n % 8; omega
  have hn2 : 8 * (rbk ⟨n, hn⟩).val + n % 8 < cfg0.N := by rw [← e]; exact hn
  rw [stats_congr m c n _ e hn hn2 y]
  exact stats_at m c (rbk ⟨n, hn⟩) (n % 8) (Nat.mod_lt n (by decide)) hn2 y

end Cert.KernelIdeal.Region

end
-- ==== Proof.KRow.lean ====
/-
  The row terms.

  At the last column block of a row block the body stores, for each of its 512 rows, the term read off the
  statistics it has just updated; those are the row's streaming state after all eight column blocks, so the stored
  term is the row's streaming term, and what the point writes back is its block of the array of all streaming
  row terms.
-/
import proofs.«107857_j43052752175450_1_alg».proof.Proof.Spec
import proofs.«107857_j43052752175450_1_alg».proof.Proof.KPieces
import proofs.«107857_j43052752175450_1_alg».proof.Proof.KPayload
import proofs.«107857_j43052752175450_1_alg».proof.Proof.KBlocks
import proofs.«107857_j43052752175450_1_alg».proof.Proof.KStats
import proofs.«107857_j43052752175450_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.Contrast Cert.KernelIdeal.Payload

variable (m : (ℓ : Loc nD τ sig) → Buf (Elt Ideal) ℓ)

set_option quotPrecheck false in
/-- A case-C piece of the body at point `t`: `f` at the point's memrefs, condition proofs, loaded blocks, and the
    four statistics the point before left. -/
local notation "atC[" f ", " m ", " c ", " t ", " h0 ", " h7 "]" =>
  f c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _)
    scM0_2 (Memref.isWhole_whole _) scM0_3 (Memref.isWhole_whole _)
    (fun h => h0 (Iff.mp (hcond0_0 t) h)) (Iff.mpr (hcond0_1 t) h7) (iblk m c 0 t) (iblk m c 1 t) (iblk m c 2 t) (iblk m c 3 t)
    (outsAt0 m c (Fin.val t - 1) (Nat.lt_of_le_of_lt (Nat.sub_le _ _) (Fin.isLt t))).2.2.2.1
    (outsAt0 m c (Fin.val t - 1) (Nat.lt_of_le_of_lt (Nat.sub_le _ _) (Fin.isLt t))).2.2.2.2.1
    (outsAt0 m c (Fin.val t - 1) (Nat.lt_of_le_of_lt (Nat.sub_le _ _) (Fin.isLt t))).2.2.2.2.2.1
    (outsAt0 m c (Fin.val t - 1) (Nat.lt_of_le_of_lt (Nat.sub_le _ _) (Fin.isLt t))).2.2.2.2.2.2

/-- At a point of the last column block the four statistics at a row are the payload terms of the point's blocks
    and of the statistics the point before left. -/
theorem stats_last (c : Dev nD) (t : Fin cfg0.N) (h0 : ¬t.val % 8 = 0) (h7 : t.val % 8 = 7) (y : S512x1.Idx) :
    stats m c t.val t.isLt y
      = (k0_pay4 (k0_pay14 (iblk m c 0 t) (iblk m c 1 t)
            (outsAt0 m c (t.val - 1) (Nat.lt_of_le_of_lt (Nat.sub_le _ _) t.isLt)).2.2.2.1) y,
         k0_pay1 (k0_pay15 (iblk m c 0 t) (iblk m c 1 t)
              (outsAt0 m c (t.val - 1) (Nat.lt_of_le_of_lt (Nat.sub_le _ _) t.isLt)).2.2.2.1
              (outsAt0 m c (t.val - 1) (Nat.lt_of_le_of_lt (Nat.sub_le _ _) t.isLt)).2.2.2.1)
            (k0_pay16 (iblk m c 0 t) (iblk m c 1 t)
              (outsAt0 m c (t.val - 1) (Nat.lt_of_le_of_lt (Nat.sub_le _ _) t.isLt)).2.2.2.1)
            (outsAt0 m c (t.val - 1) (Nat.lt_of_le_of_lt (Nat.sub_le _ _) t.isLt)).2.2.2.2.1 y,
         k0_pay2 (k0_pay11 (iblk m c 0 t) (iblk m c 1 t)) (k0_pay13 (iblk m c 2 t) (iblk m c 3 t))
            (outsAt0 m c (t.val - 1) (Nat.lt_of_le_of_lt (Nat.sub_le _ _) t.isLt)).2.2.2.2.2.1 y,
         k0_pay3 (k0_pay13 (iblk m c 2 t) (iblk m c 3 t))
            (outsAt0 m c (t.val - 1) (Nat.lt_of_le_of_lt (Nat.sub_le _ _) t.isLt)).2.2.2.2.2.2 y) := by
  unfold stats
  rw [outsAt0_C m c t h0 h7]
  dsimp only
  rw [atC[Pieces.max_C (F := Ideal), m, c, t, h0, h7], atC[Pieces.expSum_C (F := Ideal), m, c, t, h0, h7],
    atC[Pieces.logitSum_C (F := Ideal), m, c, t, h0, h7], atC[Pieces.count_C (F := Ideal), m, c, t, h0, h7]]

/-- At a point of the last column block the stored row terms are the streaming terms of the point's rows. -/
theorem rowTile_eq (c : Dev nD) (t : Fin cfg0.N) (h7 : t.val % 8 = 7) :
    (outsAt0 m c t.val t.isLt).2.2.1
      = fun y => rowStream (rowLogits m c (row (rbk t) (y 0))) (rowAgree m c (row (rbk t) (y 0))) := by
  have h0 : ¬t.val % 8 = 0 := by omega
  funext y
  have hs := stats_eq m c t.val t.isLt y
  rw [stats_last m c t h0 h7 y] at hs
  rw [outsAt0_C m c t h0 h7]
  dsimp only
  rw [atC[Pieces.rowTerm_C (F := Ideal), m, c, t, h0, h7], rowTerm_apply, hs]
  unfold rowStream
  exact congrArg finish (accAfter_congr _ _ _ _ (by omega) _ _)

/-- What a writing-back point writes to the row-term array is its block of the array of all streaming row terms. -/
theorem flushed_row (c : Dev nD) (t : Fin cfg0.N) (hf : (cfg0.win 6).flush t = true) :
    (dats m 0 c).flushed 6 t = ((cfg0.win 6).blk t).view.read (Elt Ideal) (rowArr m c) := by
  have h7 : t.val % 8 = 7 := (flush0_6 t).mp hf
  show (cfg0.win 6).cut (grid0.coords t) ((dats m 0 c).after 6 t) = _
  rw [after0_6, rowTile_eq m c t h7]
  funext j
  rw [View.read_apply]
  show rowStream (rowLogits m c (row (rbk t) ((cfg0.win 6).xinj (grid0.coords t) j 0)))
      (rowAgree m c (row (rbk t) ((cfg0.win 6).xinj (grid0.coords t) j 0)))
    = rowStream (rowLogits m c (((cfg0.win 6).blk t).view.emb j 0)) (rowAgree m c (((cfg0.win 6).blk t).view.emb j 0))
  have e : row (rbk t) ((cfg0.win 6).xinj (grid0.coords t) j 0) = ((cfg0.win 6).blk t).view.emb j 0 := by
    apply Fin.ext
    show 512 * (t.val / 8) + (j 0).val = win0_6.index t 0 * 512 + 1 * (j 0).val
    obtain ⟨-, -, -, -, -, -, -, -, -, -, -, -, e6, -⟩ := idx_facts t
    rw [e6]
    omega
  rw [e]

end Cert.KernelIdeal.Region

end
-- ==== Proof.KTail.lean ====
/-
  Two facts about the kernel's program around its region.

  THE COVERS. The similarity and label-agreement arrays are tiled by 512 × 512 blocks, block (t / 8, t % 8) written
  back at point `t`; every index (r, q) lies in the block of the point `8·(r / 512) + q / 512`. The row-term
  array is tiled by 512 × 1 blocks, block `t / 8` written back only at the points with `t % 8 = 7`; row `r` lies
  in the block of the point `8·(r / 512) + 7`.

  THE TAIL. After the region the program flattens the [4096, 1] row-term array to a vector, sums it from zero,
  divides by 4096 and negates: minus the mean of the row terms.
-/
import proofs.«107857_j43052752175450_1_alg».proof.Proof.Spec
import proofs.«107857_j43052752175450_1_alg».proof.Proof.Consts
import proofs.«107857_j43052752175450_1_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Tail

open Idealize.ShloMosaic Idealize.ShloMosaic.TcCoe Idealize.ShloMosaic.ValueIdx Idealize.SL.Sem
open Idealize.ShloMosaic.Pipeline (Dat)
open Cert.KernelIdeal Cert.KernelIdeal.Gen Cert.Contrast

variable (m : (ℓ : Loc nD τ sig) → Buf (Elt Ideal) ℓ)

/-! ## The covers -/

/-- The printed index maps of the three output windows, decided once over the grid: the similarity and
    label-agreement blocks at point `t` are block `(t / 8, t % 8)`, the row-term block is `(t / 8, 0)`. -/
theorem out_index : ∀ t : Fin cfg0.N, win0_4.index t (0 : Fin 2) = t.val / 8
    ∧ win0_4.index t (1 : Fin 2) = t.val % 8
    ∧ win0_5.index t (0 : Fin 2) = t.val / 8
    ∧ win0_5.index t (1 : Fin 2) = t.val % 8
    ∧ win0_6.index t (0 : Fin 2) = t.val / 8
    ∧ win0_6.index t (1 : Fin 2) = 0 :=
  (by decide +kernel : ∀ t : Fin grid0.N, _)

/-- An index of the similarity array is in point `t`'s block iff each coordinate is in the block's range on its axis. -/
theorem mem_blk_sim (t : Fin cfg0.N) (i : S4096x4096.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v14_0).slice (win0_4.rect t)).set ↔ _
  rw [View.set_slice_whole, Rect.mem_set_unit]
  exact Iff.rfl

/-- The same for the label-agreement array. -/
theorem mem_blk_mask (t : Fin cfg0.N) (i : S4096x4096.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v14_1).slice (win0_5.rect t)).set ↔ _
  rw [View.set_slice_whole, Rect.mem_set_unit]
  exact Iff.rfl

/-- The same for the row-term array. -/
theorem mem_blk_row (t : Fin cfg0.N) (i : S4096x1.Idx) :
    i ∈ ((cfg0.win 6).blk t).view.set ↔ ∀ a : Fin 2, win0_6.index t a * S512x1.size a ≤ (i a).val
      ∧ (i a).val < win0_6.index t a * S512x1.size a + S512x1.size a := by
  show i ∈ ((View.whole main_v14_2).slice (win0_6.rect t)).set ↔ _
  rw [View.set_slice_whole, Rect.mem_set_unit]
  exact Iff.rfl

/-- The point with a given number below 64. -/
theorem point_of (n : ℕ) (h : n < 64) : ∃ t : Fin cfg0.N, t.val = n :=
  ⟨⟨n, by show n < grid0.N; rw [N_0]; exact h⟩, rfl⟩

/-- Every index of the similarity array is in the block some point writes back. -/
theorem cover_sim (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := point_of (8 * ((i 0).val / 512) + (i 1).val / 512) (by omega)
  obtain ⟨e0, e1, -, -, -, -⟩ := out_index t
  refine ⟨t, flush0_4 t, ?_⟩
  rw [mem_blk_sim]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- Every index of the label-agreement array is in the block some point writes back. -/
theorem cover_mask (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := point_of (8 * ((i 0).val / 512) + (i 1).val / 512) (by omega)
  obtain ⟨-, -, e0, e1, -, -⟩ := out_index t
  refine ⟨t, flush0_5 t, ?_⟩
  rw [mem_blk_mask]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- Every index of the row-term array is in the block some point writes back (a point of the last column block). -/
theorem cover_row (i : S4096x1.Idx) :
    ∃ t : Fin cfg0.N, (cfg0.win 6).flush t = true ∧ i ∈ ((cfg0.win 6).blk t).view.set := by
  have hi0 : (i 0).val < 4096 := (i 0).isLt
  have hi1 : (i 1).val < 1 := (i 1).isLt
  obtain ⟨t, ht⟩ := point_of (8 * ((i 0).val / 512) + 7) (by omega)
  obtain ⟨-, -, -, -, e0, e1⟩ := out_index t
  refine ⟨t, (flush0_6 t).mpr (by omega), ?_⟩
  rw [mem_blk_row]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1 ≤ (i 1).val ∧ (i 1).val < win0_6.index t (1 : Fin 2) * 1 + 1; omega

/-! ## The tail -/

/-- A vector's indices are its one coordinate. -/
def vecIdxEquiv : S4096.Idx ≃ Fin 4096 where
  toFun j := j 0
  invFun r := ix1 r
  left_inv j := (eq_ix1 j).symm
  right_inv _ := rfl

/-- A `[4096, 1]` array flattened to a vector reads, at `r`, the array at `(r, 0)`: the same row-major position. -/
theorem flatten_apply {α : Type} (x : S4096x1.Idx → α) (h : S4096x1.ShapeCasts S4096) (r : Fin 4096) :
    shapeCast S4096 x h (ix1 r) = x (ix2 r (0 : Fin 1)) :=
  shapeCast_apply x h _ _ (by
    rw [Shape.rowMajor_val_two, Shape.rowMajor_val_one]
    show r.val * 1 + 0 = r.val
    omega)

/-- Flattening a `[4096, 1]` array, summing it from zero, dividing by 4096 and negating gives minus the mean of
    its 4096 entries. -/
theorem tail_of (A : S4096x1.Idx → EReal) :
    (Host.negf (F := Ideal) (s := S_) (φ := .f32)
      (Host.divf (F := Ideal)
        (Host.reduceAdd (F := Ideal) (s := S4096) (φ := .f32)
          (fun i => shapeCast S4096 A shapeCasts_S4096x1_S4096 i)
          (constant (F := Ideal) S_ .f32 0x00000000#32) reducesTo_S4096_S_d0 h_S_)
        (constant (F := Ideal) S_ .f32 0x45800000#32)) : S_.Idx → EReal)
      = lossOut (fun r => A (ix2 r 0)) := by
  have hsum : (∑ i : S4096.Idx, shapeCast S4096 A shapeCasts_S4096x1_S4096 i) = ∑ r : Fin 4096, A (ix2 r 0) := by
    refine Fintype.sum_equiv vecIdxEquiv _ _ fun i => ?_
    obtain ⟨r, rfl⟩ : ∃ r : Fin 4096, i = ix1 r := ⟨i 0, eq_ix1 i⟩
    exact flatten_apply A _ r
  funext j
  show -(Ideal.div (Ideal.hostReduceAdd reducesTo_S4096_S_d0
      (fun i => shapeCast S4096 A shapeCasts_S4096x1_S4096 i)
      (Ideal.ofBits .f32 0x00000000#32) j) (Ideal.ofBits .f32 0x45800000#32)) = _
  rw [Ideal.hostReduceAdd_total reducesTo_S4096_S_d0 (fun b => b.elim0), Ideal.ofBits_zero_f32, zero_add, ofBits_4096, hsum]
  rfl

/-- The loss the program returns is minus the mean of the row-term array the region leaves. -/
theorem tail_loss (c : Dev nD) :
    (Pipeline.afterTail₀ cfgs (dats m) 0 (V0 m) [hostOps1] c main_v18 : S_.Idx → EReal)
      = lossOut (fun r => ((dats m 0 c).arrAt 6 cfg0.N : S4096x1.Idx → EReal) (ix2 r 0)) := by
  unfold Pipeline.afterTail₀
  show StableHlo.after hostOps1 _ (Proc.devRef .tc main_v18) = _
  after_results
  have harr : (Pipeline.withArrays (cfgs 0).spec c (V0 m c) (fun w => (dats m 0 c).arrAt w (cfgs 0).N)
      (Proc.devRef .tc main_v14_2) : S4096x1.Idx → EReal) = (dats m 0 c).arrAt 6 cfg0.N :=
    Pipeline.withArrays_arr spec0 launch0.win.arr_inj c _ _ 6
  rw [harr]
  exact tail_of ((dats m 0 c).arrAt 6 cfg0.N : S4096x1.Idx → EReal)

end Cert.KernelIdeal.Tail

end
-- ==== Proof.KRun.lean ====
/-
  The kernel's run, read.

  Each of the three result arrays of the region is tiled by the blocks its points write back, and each point writes
  its block of one whole-array function: so the similarity array ends as all inner products, the label array as all
  label agreements, the row-term array as all streaming row terms; the operations after the region turn the last
  into minus its mean. The arguments are never written.
-/
import proofs.«107857_j43052752175450_1_alg».proof.Proof.Spec
import proofs.«107857_j43052752175450_1_alg».proof.Proof.KBlocks
import proofs.«107857_j43052752175450_1_alg».proof.Proof.KTiles
import proofs.«107857_j43052752175450_1_alg».proof.Proof.KRow
import proofs.«107857_j43052752175450_1_alg».proof.Proof.KTail
import proofs.«107857_j43052752175450_1_alg».proof.Proof.Gen.KernelIdeal.Frame
import Idealize.ShloMosaic.Lib.Pipeline.Value
import Idealize.ShloMosaic.Lib.ValueIdx

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.Contrast

variable (m : (ℓ : Loc nD τ sig) → Buf (Elt Ideal) ℓ) (ρ : Dev nD → PrngReg)

/-- The similarity array ends as all inner products. -/
theorem final_sim (c : Dev nD) : (dats m 0 c).arrAt 4 cfg0.N = simArr m c :=
  (dats m 0 c).arrAt_eq_of_cover 4 (simArr m c) (fun t _ => flushed_sim m c t) Tail.cover_sim

/-- The label array ends as all label agreements. -/
theorem final_mask (c : Dev nD) : (dats m 0 c).arrAt 5 cfg0.N = agreeArr m c :=
  (dats m 0 c).arrAt_eq_of_cover 5 (agreeArr m c) (fun t _ => flushed_mask m c t) Tail.cover_mask

/-- The row-term array ends as all streaming row terms. -/
theorem final_row (c : Dev nD) : (dats m 0 c).arrAt 6 cfg0.N = rowArr m c :=
  (dats m 0 c).arrAt_eq_of_cover 6 (rowArr m c) (fun t hf => flushed_row m c t hf) Tail.cover_row

/-- Every weakly fair execution ends with the three results at these values and the arguments unchanged. -/
theorem run : θ_run defs (onTc (τ := τ) (main (F := Ideal))) ⟨m, fun _ => 0, ρ⟩ fun r => ∀ c : Dev nD,
      r.2.mem ((c : Thread nD τ).loc main_v14_0) = simArr m c
      ∧ (r.2.mem ((c : Thread nD τ).loc main_v18) : S_.Idx → EReal) = lossOut (fun r' => rowArr m c (ix2 r' 0))
      ∧ r.2.mem ((c : Thread nD τ).loc main_v14_1) = agreeArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final_sim m c),
      ((h c).2 main_v18 (Pipeline.mem_restRefs_of main_v18 (by decide) (by decide))).trans
        ((Tail.tail_loss m c).trans (by rw [final_row])),
      ((h c).1 5).trans (final_mask m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Region

end
-- ==== Proof.lean ====
/-
  A contrastive loss over cosine similarities: the kernel against its reference, over the extended reals.

  Both programs scale the rows of two [4096, 1024] arrays to unit length, form all 4096 × 4096 inner products, and
  from them and an integer label per row return three things: the similarities, the label-agreement mask, and
  minus the mean over rows of the masked mean log-softmax of the similarities divided by a temperature T.

  They differ in two ways, and both disappear over the extended reals on finite inputs.
  (1) The reference divides by T and, for the similarity result, multiplies by T again; the kernel returns the inner
  products as they are and, for the loss, multiplies by a constant that the certificate's table reads as exactly
  1 / T. Dividing by T is multiplying by 1 / T, and on a real number multiplying by 1 / T and then by T is the identity.
  (2) The reference takes each row's maximum and sum of exponentials over the whole row at once; the kernel streams
  the row in eight blocks of 512 columns, keeping a running maximum, a sum of exponentials rescaled whenever the
  maximum moves, a masked sum and a count, and reads the row's term off the final state. On finite logits with a
  zero-one mask that is set on the diagonal the two agree: `exp (a − b) · exp (b − c) = exp (a − c)`, and the finite
  constant `max + log Σ` distributes over the mask.
  Finiteness of every intermediate follows from the precondition (finite inputs): a row's norm is a real, the
  divisor is at least ε > 0, and inner products of real rows are real.
-/
import proofs.«107857_j43052752175450_1_alg».proof.Defs
import proofs.«107857_j43052752175450_1_alg».proof.Proof.Gen.Kernel
import proofs.«107857_j43052752175450_1_alg».proof.Proof.Gen.Kernel.Skeleton
import proofs.«107857_j43052752175450_1_alg».proof.Proof.Gen.Kernel.Launch
import proofs.«107857_j43052752175450_1_alg».proof.Proof.Gen.Kernel.Points
import proofs.«107857_j43052752175450_1_alg».proof.Proof.Gen.Kernel.Frame
import proofs.«107857_j43052752175450_1_alg».proof.Proof.Gen.KernelIdeal
import proofs.«107857_j43052752175450_1_alg».proof.Proof.Gen.KernelIdeal.Skeleton
import proofs.«107857_j43052752175450_1_alg».proof.Proof.Gen.KernelIdeal.Launch
import proofs.«107857_j43052752175450_1_alg».proof.Proof.Gen.KernelIdeal.Points
import proofs.«107857_j43052752175450_1_alg».proof.Proof.Gen.KernelIdeal.Frame
import proofs.«107857_j43052752175450_1_alg».proof.Proof.Gen.ReferenceIdeal
import proofs.«107857_j43052752175450_1_alg».proof.Proof.Gen.Pre_finite_inputs
import proofs.«107857_j43052752175450_1_alg».proof.Proof.Finite
import proofs.«107857_j43052752175450_1_alg».proof.Proof.RefValue
import proofs.«107857_j43052752175450_1_alg».proof.Proof.KBridge
import proofs.«107857_j43052752175450_1_alg».proof.Proof.KRun
import Idealize.ShloMosaic.Adequacy
import Idealize.ShloMosaic.Init

noncomputable section

namespace Cert.Proof

open Idealize.ShloMosaic Idealize.ShloMosaic.ValueIdx Idealize.SL.Sem Cert.Contrast

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2.2) (Cert.ReferenceIdeal.RefValue.run m ρ)

/-- The one rewritten constant: the table reads the kernel's `20.0` as the reciprocal of the reference's
    temperature word, `2^28 / 13421773`. -/
theorem preserves : Cert.preserves_Kernel_KernelIdeal :=
  IdealRules.named_const.statement Cert.KernelIdeal.κ "inv_temp" .f32 0x41A00000#32 ((268435456 / 13421773 : ℝ) : EReal) rfl

/-- From memories that agree on finite inputs both programs end with the same three results. -/
theorem algebraic : Cert.algebraic_KernelIdeal_ReferenceIdeal := by
  intro m ρ m' ρ' hpre hagree
  have hfin := fun c => Cert.Contrast.real_of_pre _ _ _ (hpre c)
  refine ⟨fun c => Cert.KernelIdeal.Region.simArr m c,
    fun c => lossOut (fun r => Cert.KernelIdeal.Region.rowArr m c (ix2 r 0)),
    fun c => Cert.KernelIdeal.Region.agreeArr m c, Cert.KernelIdeal.Region.run m ρ, ?_⟩
  refine (θ_run Cert.ReferenceIdeal.defs _ _).mono (fun r h c => ?_) (Cert.ReferenceIdeal.RefValue.run m' ρ')
  obtain ⟨h0, h1, h2, ha0, ha1, ha2⟩ := h c
  obtain ⟨e0, e1, e2⟩ := hagree c
  refine ⟨h0.trans ?_, h1.trans ?_, h2.trans ?_, ha0, ha1, ha2⟩
  · rw [e0, e1]
    exact (Cert.KernelIdeal.Region.simArr_eq m c (hfin c).1 (hfin c).2).symm
  · rw [e0, e1, e2]
    exact congrArg lossOut (funext fun r => (Cert.KernelIdeal.Region.rowArr_eq m c (hfin c).1 (hfin c).2 r).symm)
  · rw [e2]
    exact (Cert.KernelIdeal.Region.agreeArr_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
